-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S4x128x128 .f32) (main_arg3 : FVec F S4x128 .f32) (main_arg4 : FVec F S4x128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S1x1600000 : Shape := ⟨2, ![1, 1600000]⟩
abbrev S1600000 : Shape := ⟨1, ![1600000]⟩
abbrev S4x256x128 : Shape := ⟨3, ![4, 256, 128]⟩
abbrev S_ : Shape := ⟨0, ![]⟩
abbrev S1600000x1 : Shape := ⟨2, ![1600000, 1]⟩
abbrev S1600000x128 : Shape := ⟨2, ![1600000, 128]⟩
abbrev S1x256x128 : Shape := ⟨3, ![1, 256, 128]⟩
abbrev S256x128 : Shape := ⟨2, ![256, 128]⟩
abbrev S1x128 : Shape := ⟨2, ![1, 128]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 84
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S4x128x128, .f32⟩
  | .hbm, ⟨3, _⟩ => ⟨S4x128, .f32⟩
  | .hbm, ⟨4, _⟩ => ⟨S4x128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S4x256x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x256x128, .f32⟩
  | .hbm, ⟨26, _⟩ => ⟨S256x128, .f32⟩
  | .hbm, ⟨27, _⟩ => ⟨S1x128, .f32⟩
  | .hbm, ⟨28, _⟩ => ⟨S128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x256x128, .f32⟩
  | .hbm, ⟨44, _⟩ => ⟨S256x128, .f32⟩
  | .hbm, ⟨45, _⟩ => ⟨S1x128, .f32⟩
  | .hbm, ⟨46, _⟩ => ⟨S128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x256x128, .f32⟩
  | .hbm, ⟨62, _⟩ => ⟨S256x128, .f32⟩
  | .hbm, ⟨63, _⟩ => ⟨S1x128, .f32⟩
  | .hbm, ⟨64, _⟩ => ⟨S128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x256x128, .f32⟩
  | .hbm, ⟨80, _⟩ => ⟨S256x128, .f32⟩
  | .hbm, ⟨81, _⟩ => ⟨S1x128, .f32⟩
  | .hbm, ⟨82, _⟩ => ⟨S128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S256x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S256x128, .f32⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S256x128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S4x128x128_S4x128x128_S4x256x128_d1 : Shape.Concatenates [S4x128x128, S4x128x128] S4x256x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  concatenates_S5000x128_S5000x128_S5000x256_d1 : Shape.Concatenates [S5000x128, S5000x128] S5000x256 1
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 209
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S_, .f32⟩
  | 57 => ⟨S100000x1, .f32⟩
  | 58 => ⟨S100000x1, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S100000x128, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S100000x1, .f32⟩
  | 116 => ⟨S100000x1, .f32⟩
  | 117 => ⟨S100000x1, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S1x128, .f32⟩
  | 1 => ⟨S128, .f32⟩
  | 2 => ⟨S1x128x128, .f32⟩
  | 3 => ⟨S128x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x128, .f32⟩
  | 34 => ⟨S100000x128, .f32⟩
  | 35 => ⟨S100000x128, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S100000x128, .f32⟩
  | 43 => ⟨S100000x128, .f32⟩
  | 44 => ⟨S_, .f32⟩
  | 45 => ⟨S100000x1, .f32⟩
  | 46 => ⟨S100000x1, .f32⟩
  | 47 => ⟨S100000x1, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_6 : Ref sig .tc := ⟨.hbm, 74, rfl⟩
abbrev main_v57 : Ref sig .tc := ⟨.hbm, 75, rfl⟩
abbrev main_v58 : Ref sig .tc := ⟨.hbm, 76, rfl⟩
abbrev main_c_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call1_cst : Ref sig .tc := ⟨.hbm, 94, rfl⟩
abbrev main_call1_v0 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_cst_10 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_c_14 : Ref sig .tc := ⟨.hbm, 132, rfl⟩
abbrev main_v105 : Ref sig .tc := ⟨.hbm, 133, rfl⟩
abbrev main_v106 : Ref sig .tc := ⟨.hbm, 134, rfl⟩
abbrev main_c_15 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_16 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_call2_cst : Ref sig .tc := ⟨.hbm, 152, rfl⟩
abbrev main_call2_v0 : Ref sig .tc := ⟨.hbm, 153, rfl⟩
abbrev main_v122 : Ref sig .tc := ⟨.hbm, 154, rfl⟩
abbrev main_cst_17 : Ref sig .tc := ⟨.hbm, 155, rfl⟩
abbrev main_v123 : Ref sig .tc := ⟨.hbm, 156, rfl⟩
abbrev main_v124 : Ref sig .tc := ⟨.hbm, 157, rfl⟩
abbrev main_cst_18 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_19 : Ref sig .tc := ⟨.hbm, 164, rfl⟩
abbrev main_v130 : Ref sig .tc := ⟨.hbm, 165, rfl⟩
abbrev main_v131 : Ref sig .tc := ⟨.hbm, 166, rfl⟩
abbrev main_cst_20 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_21 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_22 : Ref sig .tc := ⟨.hbm, 190, rfl⟩
abbrev main_v153 : Ref sig .tc := ⟨.hbm, 191, rfl⟩
abbrev main_v154 : Ref sig .tc := ⟨.hbm, 192, rfl⟩
abbrev main_c_23 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_24 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the four-layer graph convolution, stated once over extended reals and with no program in sight.

  One layer takes the node features `H` (100000 rows of 128), the aggregated neighbour features `A` (same shape: row `r` of
  `A` is the sum of the rows of `H` over the edges that end in `r`), and per layer two 128 × 128 weights and a bias:
    conv r j = (∑ k, A r k · Wrel k j + b j) + ∑ k, H r k · Wroot k j.
  Layers 0, 1, 2 then clamp at zero and normalise each ROW: with μ the row's mean and σ² the mean of the squared
  deviations, the entry becomes ((x − μ) · rsqrt (σ² + ε)) · γ j + β j; layers 1 and 2 add the layer's input `H r j`
  before the clamp; layer 3 returns `conv`.
  Every function here is a function of ONE ROW of `A` and of `H`: that is what lets a row-blocked kernel and a
  whole-array reference be compared row by row.

  The one algebraic fact (`sum_split`): a sum over 256 = 128 + 128 indices of a product whose left factor is the
  row of `A` followed by the row of `H`, and whose right factor is `Wrel` stacked on `Wroot`, is the sum of the two
  128-term sums. It uses commutativity and associativity of + only, so it holds at the infinities too and no
  finiteness of the inputs is needed anywhere.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- The row length 128 as the f32 constant both programs divide by. -/
def c128 : EReal := Ideal.ofBits .f32 0x43000000#32
/-- The normalisation's ε, the f32 nearest 1e-5, as both programs spell it. -/
def cEps : EReal := Ideal.ofBits .f32 0x3727C5AC#32

/-- `(a · Wrel + b) + h · Wroot` at column `j`, for one row `a` of the aggregate and one row `h` of the features. -/
def convRow (a h : Fin 128 → EReal) (wr wt : Fin 128 → Fin 128 → EReal) (b : Fin 128 → EReal) (j : Fin 128) : EReal :=
  (∑ k : Fin 128, a k * wr k j + b j) + ∑ k : Fin 128, h k * wt k j

/-- The mean of a row: its sum divided by 128. -/
def rowMean (x : Fin 128 → EReal) : EReal := Ideal.div (∑ j : Fin 128, x j) c128

/-- The mean of the squared deviations from the mean. -/
def rowVar (x : Fin 128 → EReal) : EReal :=
  Ideal.div (∑ j : Fin 128, (x j - rowMean x) * (x j - rowMean x)) c128

/-- Row normalisation with scale γ and shift β. -/
def lnRow (g β x : Fin 128 → EReal) (j : Fin 128) : EReal :=
  (x j - rowMean x) * Ideal.rsqrt (rowVar x + cEps) * g j + β j

/-- Layer 0 on one row: convolution, clamp at zero, normalise. -/
def rowFirst (a h : Fin 128 → EReal) (wr wt : Fin 128 → Fin 128 → EReal) (b g β : Fin 128 → EReal) : Fin 128 → EReal :=
  lnRow g β fun j => max (convRow a h wr wt b j) 0

/-- Layers 1 and 2 on one row: convolution plus the input row, clamp at zero, normalise. -/
def rowMid (a h : Fin 128 → EReal) (wr wt : Fin 128 → Fin 128 → EReal) (b g β : Fin 128 → EReal) : Fin 128 → EReal :=
  lnRow g β fun j => max (convRow a h wr wt b j + h j) 0

/-- The stacked sum splits: over `Fin 256`, a left factor that is `a` on the first 128 indices and `h` on the last 128,
    against a right factor that is `wr` then `wt`. -/
theorem sum_split (L R : Fin 256 → EReal) (a h : Fin 128 → EReal) (wr wt : Fin 128 → EReal)
    (hLa : ∀ k : Fin 128, L ⟨k.val, by omega⟩ = a k) (hLh : ∀ k : Fin 128, L ⟨128 + k.val, by omega⟩ = h k)
    (hRa : ∀ k : Fin 128, R ⟨k.val, by omega⟩ = wr k) (hRh : ∀ k : Fin 128, R ⟨128 + k.val, by omega⟩ = wt k) :
    ∑ k : Fin 256, L k * R k = ∑ k : Fin 128, a k * wr k + ∑ k : Fin 128, h k * wt k := by
  refine (Fin.sum_univ_add (a := 128) (b := 128) (fun k : Fin (128 + 128) => L k * R k)).trans ?_
  congr 1
  · exact Finset.sum_congr rfl fun k _ => by
      show L ⟨k.val, _⟩ * R ⟨k.val, _⟩ = _
      rw [hLa, hRa]
  · exact Finset.sum_congr rfl fun k _ => by
      show L ⟨128 + k.val, _⟩ * R ⟨128 + k.val, _⟩ = _
      rw [hLh, hRh]

/-- The bias moves past the second product: `(s₁ + s₂) + b = (s₁ + b) + s₂`. -/
theorem add_bias_comm (s₁ s₂ b : EReal) : s₁ + s₂ + b = s₁ + b + s₂ := add_right_comm s₁ s₂ b

/-! ## The whole arrays -/

abbrev SN : Shape := ⟨2, ![100000, 128]⟩
abbrev SW : Shape := ⟨3, ![4, 128, 128]⟩
abbrev SB : Shape := ⟨2, ![4, 128]⟩
abbrev SV : Shape := ⟨1, ![128]⟩

/-- Row `r` of a node array. -/
def rowOf (X : SN.Idx → EReal) (r : Fin 100000) : Fin 128 → EReal := fun k => X (ix2 r k)
/-- Layer `l`'s 128 × 128 weight. -/
def matOf (W : SW.Idx → EReal) (l : Fin 4) : Fin 128 → Fin 128 → EReal := fun k j => W (ix3 l k j)
/-- Layer `l`'s bias. -/
def biasOf (B : SB.Idx → EReal) (l : Fin 4) : Fin 128 → EReal := fun j => B (ix2 l j)
/-- A length-128 vector as a function of its one coordinate. -/
def vecOf (g : SV.Idx → EReal) : Fin 128 → EReal := fun j => g (ix1 j)

/-- Layer 0 over the whole node array. -/
def layerFirst (l : Fin 4) (A H : SN.Idx → EReal) (Wrel : SW.Idx → EReal) (B : SB.Idx → EReal) (Wroot : SW.Idx → EReal)
    (g β : SV.Idx → EReal) : SN.Idx → EReal := fun i =>
  rowFirst (rowOf A (i 0)) (rowOf H (i 0)) (matOf Wrel l) (matOf Wroot l) (biasOf B l) (vecOf g) (vecOf β) (i 1)

/-- Layers 1, 2 over the whole node array. -/
def layerMid (l : Fin 4) (A H : SN.Idx → EReal) (Wrel : SW.Idx → EReal) (B : SB.Idx → EReal) (Wroot : SW.Idx → EReal)
    (g β : SV.Idx → EReal) : SN.Idx → EReal := fun i =>
  rowMid (rowOf A (i 0)) (rowOf H (i 0)) (matOf Wrel l) (matOf Wroot l) (biasOf B l) (vecOf g) (vecOf β) (i 1)

/-- Layer 3 over the whole node array: the convolution alone. -/
def layerLast (l : Fin 4) (A H : SN.Idx → EReal) (Wrel : SW.Idx → EReal) (B : SB.Idx → EReal) (Wroot : SW.Idx → EReal) :
    SN.Idx → EReal := fun i =>
  convRow (rowOf A (i 0)) (rowOf H (i 0)) (matOf Wrel l) (matOf Wroot l) (biasOf B l) (i 1)

/-- The four layers, over ANY aggregation `agg` of a node array (both programs apply the same gather and
    scatter-add of the edge list; it is carried as one function and never opened). -/
def net (agg : (SN.Idx → EReal) → (SN.Idx → EReal)) (X : SN.Idx → EReal) (Wrel : SW.Idx → EReal) (B : SB.Idx → EReal)
    (Wroot : SW.Idx → EReal) (g β : SV.Idx → EReal) : SN.Idx → EReal :=
  let h1 := layerFirst 0 (agg X) X Wrel B Wroot g β
  let h2 := layerMid 1 (agg h1) h1 Wrel B Wroot g β
  let h3 := layerMid 2 (agg h2) h2 Wrel B Wroot g β
  layerLast 3 (agg h3) h3 Wrel B Wroot

end Cert.GraphConv

end
-- ==== Proof.KDefs.lean ====
/-
  Reading a kernel block row by row. A grid point of each of the four launches holds 5000 rows of the aggregate and of
  the features (each row 128 wide), the layer's two weights stacked into one 256 × 128 array (the first 128 rows the
  weight applied to the aggregate, the last 128 the one applied to the features), and three vectors of length 128.
-/
import proofs.«410806_j56659208569289_3_alg».proof.Proof.Gen.KernelIdeal
import proofs.«410806_j56659208569289_3_alg».proof.Proof.Spec

noncomputable section

namespace Cert.KernelIdeal.Body

open Idealize.ShloMosaic Idealize.ShloMosaic.ValueIdx Cert.KernelIdeal Cert.GraphConv

/-- Row `p` of a 5000 × 128 block. -/
def brow (x : Vec Ideal S5000x128 .f32) (p : Fin 5000) : Fin 128 → EReal := fun k => x (ix2 p k)
/-- A length-128 block as a function of its coordinate. -/
def bvec (x : Vec Ideal S128 .f32) : Fin 128 → EReal := fun j => x (ix1 j)
/-- The first 128 rows of a stacked 256 × 128 weight. -/
def wtop (x : Vec Ideal S256x128 .f32) : Fin 128 → Fin 128 → EReal := fun k j => x (ix2 (⟨k.val, by omega⟩ : Fin 256) j)
/-- The last 128 rows of a stacked 256 × 128 weight. -/
def wbot (x : Vec Ideal S256x128 .f32) : Fin 128 → Fin 128 → EReal := fun k j => x (ix2 (⟨128 + k.val, by omega⟩ : Fin 256) j)

end Cert.KernelIdeal.Body

end
-- ==== Proof.KConv.lean ====
/-
  The body's matrix product at one entry. The body multiplies the 5000 × 256 concatenation [aggregate ‖ features]
  by the stacked 256 × 128 weight and adds the bias. At the extended reals (where narrowing a float is the identity)
  entry (p, q) is a 256-term sum that splits into the two 128-term sums of the convolution.
-/
import proofs.«410806_j56659208569289_3_alg».proof.Proof.Gen.KernelIdeal.Frame
import proofs.«410806_j56659208569289_3_alg».proof.Proof.KDefs
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.GraphConv

/-! ## The operand indices of the product

The product contracts axis 1 of the 5000 × 256 operand against axis 0 of the 256 × 128 one. At the output index
`i` and the contraction index `c` the left operand is read at (i 0, c) and the right one at (c, i 1). The four
coordinates follow, one lemma each. -/

/-- The left operand's row is the output's row. -/
theorem lhs_conv_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The left operand's column is the contraction index. -/
theorem lhs_conv_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c

/-- The right operand's row is the contraction index. -/
theorem rhs_conv_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c

/-- The right operand's column is the output's column. -/
theorem rhs_conv_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product into the zero accumulator, at entry (p, q): the sum over the 256 contraction coordinates of the left
    operand's row `p` against the right operand's column `q`. -/
theorem mm_apply (y0 : FVec Ideal S5000x256 .bf16) (y1 : FVec Ideal S256x128 .bf16) (p : Fin 5000) (q : Fin 128) :
    (matmul dot_S5000x256_S256x128_S5000x128_1_0_0_1_n_n none y0 y1 (constant S5000x128 .f32 0x00000000#32) : FVec Ideal S5000x128 .f32) (ix2 p q)
      = ∑ k : Fin 256, y0 (ix2 p k) * y1 (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact lhs_conv_0 _ _
      | ⟨1, _⟩ => exact (lhs_conv_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (rhs_conv_0 _ _).trans hk
      | ⟨1, _⟩ => exact rhs_conv_1 _ _)
  rw [el, er]

/-! ## The concatenated row -/

/-- A column below 128 of the concatenation is that column of the first piece. -/
theorem cat_left (y0 y1 : FVec Ideal S5000x128 .bf16) (p : Fin 5000) (k : Fin 128) :
    concatenate S5000x256 1 [⟨S5000x128, y0⟩, ⟨S5000x128, y1⟩] concatenates_S5000x128_S5000x128_S5000x256_d1
      (ix2 p (⟨k.val, by omega⟩ : Fin 256)) = y0 (ix2 p k) :=
  concatenate_pair_apply_left 1 y0 y1 concatenates_S5000x128_S5000x128_S5000x256_d1 _ rfl _ (fun b => by
    match b with
    | ⟨0, _⟩ => rfl
    | ⟨1, _⟩ => rfl)

/-- A column from 128 on is the second piece's column 128 less. -/
theorem cat_right (y0 y1 : FVec Ideal S5000x128 .bf16) (p : Fin 5000) (k : Fin 128) :
    concatenate S5000x256 1 [⟨S5000x128, y0⟩, ⟨S5000x128, y1⟩] concatenates_S5000x128_S5000x128_S5000x256_d1
      (ix2 p (⟨128 + k.val, by omega⟩ : Fin 256)) = y1 (ix2 p k) :=
  concatenate_pair_apply_right 1 y0 y1 concatenates_S5000x128_S5000x128_S5000x256_d1 _ rfl rfl _
    (fun b hb => by
      match b with
      | ⟨0, _⟩ => rfl
      | ⟨1, _⟩ => exact absurd rfl hb)
    (by show k.val + 128 = 128 + k.val; omega)

/-! ## The bias -/

/-- The bias vector, cast to one row and broadcast over the 5000 rows, reads its column everywhere. -/
theorem bias_apply (x3 : Vec Ideal S128 .f32) (p : Fin 5000) (q : Fin 128) :
    (broadcastTo S5000x128 (shapeCast S1x128 x3 shapeCasts_S128_S1x128) broadcasts_S1x128_S5000x128 : FVec Ideal S5000x128 .f32)
      (ix2 p q) = x3 (ix1 q) := by
  rw [broadcastTo_1b_ab_apply, shapeCast_a_1a_apply]

/-- The stacked product plus the bias, at one entry: the 256-term sum over the concatenated row splits into the
    aggregate's and the features' 128-term sums, and the bias moves between them. -/
theorem conv_apply (x0 x1 : Vec Ideal S5000x128 .f32) (x2 : Vec Ideal S256x128 .f32) (x3 : Vec Ideal S128 .f32)
    (p : Fin 5000) (q : Fin 128) :
    (addf (matmul dot_S5000x256_S256x128_S5000x128_1_0_0_1_n_n none
        (concatenate S5000x256 1 [⟨S5000x128, truncf .bf16 x0 bitsLt_bf16_f32⟩, ⟨S5000x128, truncf .bf16 x1 bitsLt_bf16_f32⟩]
          concatenates_S5000x128_S5000x128_S5000x256_d1)
        (truncf .bf16 x2 bitsLt_bf16_f32) (constant S5000x128 .f32 0x00000000#32))
      (broadcastTo S5000x128 (shapeCast S1x128 x3 shapeCasts_S128_S1x128) broadcasts_S1x128_S5000x128) : FVec Ideal S5000x128 .f32) (ix2 p q)
    = convRow (brow x0 p) (brow x1 p) (wtop x2) (wbot x2) (bvec x3) q := by
  rw [addf_apply, mm_apply, bias_apply]
  rw [sum_split _ _ (brow x0 p) (brow x1 p) (fun k => wtop x2 k q) (fun k => wbot x2 k q)
    (fun k => cat_left _ _ p k) (fun k => cat_right _ _ p k) (fun _ => rfl) (fun _ => rfl)]
  exact add_bias_comm _ _ _

end Cert.KernelIdeal.Body

end
-- ==== Proof.KNorm.lean ====
/-
  The body's row normalisation at one entry: the lane sums are 128-term sums over the row, the two divisions by 128
  give the mean and the mean squared deviation, and the broadcasts put each row's two numbers back on its entries.
-/
import proofs.«410806_j56659208569289_3_alg».proof.Proof.Gen.KernelIdeal.Frame
import proofs.«410806_j56659208569289_3_alg».proof.Proof.KDefs
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.GraphConv

/-- A length-`a` vector recast as an `a × 1` column reads, at `(p, u)`, the vector at `p`: both positions are `p` in row-major order. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index, is the extended reals' one of the element. -/
theorem rsqrt_apply {s : Shape} {φ : FTy} (a : FVec Ideal s φ) (i : s.Idx) : rsqrt a i = Ideal.rsqrt (a i) := rfl

/-- The lane sum of a 5000 × 128 value at row `p` is the 128-term sum over that row: the index with `k` inserted on
    the lane axis is `(p, k)`. -/
theorem rowSum_apply (x : Vec Ideal S5000x128 .f32) (p : Fin 5000) :
    multiReduction (F := Ideal) .add [1] S5000 x 0x00000000#32 reduces_S5000x128_S5000 (.inl rfl) rfl (ix1 p)
      = ∑ k : Fin 128, x (ix2 p k) := by
  refine (Ideal.multiReduction_add_single _ _ _ _ _ _).trans ?_
  refine Finset.sum_congr rfl fun k _ => congrArg x ?_
  funext d
  match d with
  | ⟨0, _⟩ => rfl
  | ⟨1, _⟩ => rfl

/-- The normalisation chain of the body over any 5000 × 128 value `act`, at one entry. -/
theorem ln_apply (act : Vec Ideal S5000x128 .f32) (g β : Vec Ideal S128 .f32) (p : Fin 5000) (q : Fin 128) :
    (addf (mulf (mulf
        (subf act (broadcastTo S5000x128 (divf (shapeCast S5000x1 (multiReduction .add [1] S5000 act 0x00000000#32 reduces_S5000x128_S5000 (.inl rfl) rfl) shapeCasts_S5000_S5000x1) (broadcast S5000x1 (Scalar.ofBits .f32 0x43000000#32))) broadcasts_S5000x1_S5000x128))
        (broadcastTo S5000x128 (rsqrt (addf (divf (shapeCast S5000x1 (multiReduction .add [1] S5000
            (mulf (subf act (broadcastTo S5000x128 (divf (shapeCast S5000x1 (multiReduction .add [1] S5000 act 0x00000000#32 reduces_S5000x128_S5000 (.inl rfl) rfl) shapeCasts_S5000_S5000x1) (broadcast S5000x1 (Scalar.ofBits .f32 0x43000000#32))) broadcasts_S5000x1_S5000x128))
                  (subf act (broadcastTo S5000x128 (divf (shapeCast S5000x1 (multiReduction .add [1] S5000 act 0x00000000#32 reduces_S5000x128_S5000 (.inl rfl) rfl) shapeCasts_S5000_S5000x1) (broadcast S5000x1 (Scalar.ofBits .f32 0x43000000#32))) broadcasts_S5000x1_S5000x128)))
            0x00000000#32 reduces_S5000x128_S5000 (.inl rfl) rfl) shapeCasts_S5000_S5000x1) (broadcast S5000x1 (Scalar.ofBits .f32 0x43000000#32)))
          (broadcast S5000x1 (Scalar.ofBits .f32 0x3727C5AC#32)))) broadcasts_S5000x1_S5000x128))
        (broadcastTo S5000x128 (shapeCast S1x128 g shapeCasts_S128_S1x128) broadcasts_S1x128_S5000x128))
      (broadcastTo S5000x128 (shapeCast S1x128 β shapeCasts_S128_S1x128) broadcasts_S1x128_S5000x128) : FVec Ideal S5000x128 .f32) (ix2 p q)
    = lnRow (bvec g) (bvec β) (brow act p) q := by
  -- Every elementwise operation reads through to the entry; each column broadcast reads the column at (p, 0), each
  -- column cast the vector at p; γ and β are read at q through their one row.
  simp only [addf_apply, mulf_apply, subf_apply, divf_apply, rsqrt_apply, broadcast_apply, broadcastTo_a1_ab_apply,
    shapeCast_a_a1_apply, broadcastTo_1b_ab_apply, shapeCast_a_1a_apply]
  -- The two lane sums at row p: the row's sum, and the sum of the row's squared deviations.
  rw [rowSum_apply act p, rowSum_apply _ p]
  -- Inside the second sum each deviation is again the entry minus the row's sum divided by 128.
  simp only [mulf_apply, subf_apply, divf_apply, broadcast_apply, broadcastTo_a1_ab_apply, shapeCast_a_a1_apply]
  rw [rowSum_apply act p]
  -- What is left is the row normalisation of row p written out: the two constants are the words 128 and ε.
  rfl

end Cert.KernelIdeal.Body

end
-- ==== Proof.KBody.lean ====
/-
  What each launch's body stores, read at one entry: entry (p, q) of the stored 5000 × 128 block is the layer's row
  function of row p of the two input blocks (Spec.lean's rowFirst / rowMid / convRow) at column q.
-/
import proofs.«410806_j56659208569289_3_alg».proof.Proof.KConv
import proofs.«410806_j56659208569289_3_alg».proof.Proof.KNorm
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.GraphConv

/-- The two-coordinate zero offset, however it is spelt. -/
theorem kbody_zero2 : (![0, 0] : Fin 2 → Nat) = fun _ => 0 := by
  funext a; match a with | ⟨0, _⟩ => rfl | ⟨1, _⟩ => rfl

/-- The one-coordinate zero offset. -/
theorem kbody_zero1 : (![0] : Fin 1 → Nat) = fun _ => 0 := by
  funext a; match a with | ⟨0, _⟩ => rfl

/-- Launch 0 (convolution, clamp, normalise). -/
theorem out0_apply (x0 x1 : Vec Ideal S5000x128 .f32) (x2 : Vec Ideal S256x128 .f32) (x3 x4 x5 : Vec Ideal S128 .f32)
    (p : Fin 5000) (q : Fin 128) :
    out0_6 (F := Ideal) x0 x1 x2 x3 x4 x5 (ix2 p q)
      = rowFirst (brow x0 p) (brow x1 p) (wtop x2) (wbot x2) (bvec x3) (bvec x4) (bvec x5) q := by
  unfold out0_6
  rw [View.canon_unit_zero kbody_zero2]
  simp only [View.ld_unit_zero (S := S5000x128) kbody_zero2, View.ld_unit_zero (S := S256x128) kbody_zero2,
    View.ld_unit_zero (S := S128) kbody_zero1]
  unfold k0_pay1
  rw [shapeCast_self x0, shapeCast_self x2, shapeCast_self x3]
  -- the stored value is the normalisation chain over the clamped convolution
  refine (ln_apply (maximumf (addf (matmul dot_S5000x256_S256x128_S5000x128_1_0_0_1_n_n none
        (concatenate S5000x256 1 [⟨S5000x128, truncf .bf16 x0 bitsLt_bf16_f32⟩, ⟨S5000x128, truncf .bf16 x1 bitsLt_bf16_f32⟩]
          concatenates_S5000x128_S5000x128_S5000x256_d1)
        (truncf .bf16 x2 bitsLt_bf16_f32) (constant S5000x128 .f32 0x00000000#32))
      (broadcastTo S5000x128 (shapeCast S1x128 x3 shapeCasts_S128_S1x128) broadcasts_S1x128_S5000x128) : FVec Ideal S5000x128 .f32)
      (broadcast S5000x128 (Scalar.ofBits .f32 0x00000000#32))) x4 x5 p q).trans ?_
  unfold rowFirst
  refine congrArg (fun x => lnRow (bvec x4) (bvec x5) x q) (funext fun j => ?_)
  -- row p of the clamped value, at column j: the larger of the convolution's entry and the float zero, which is 0
  unfold brow
  rw [maximumf_apply, broadcast_apply, conv_apply]
  unfold brow
  exact congrArg (max _) Ideal.ofBits_zero_f32

/-- Launch 1 (convolution plus the input, clamp, normalise). -/
theorem out1_apply (x0 x1 : Vec Ideal S5000x128 .f32) (x2 : Vec Ideal S256x128 .f32) (x3 x4 x5 : Vec Ideal S128 .f32)
    (p : Fin 5000) (q : Fin 128) :
    out1_6 (F := Ideal) x0 x1 x2 x3 x4 x5 (ix2 p q)
      = rowMid (brow x0 p) (brow x1 p) (wtop x2) (wbot x2) (bvec x3) (bvec x4) (bvec x5) q := by
  unfold out1_6
  rw [View.canon_unit_zero kbody_zero2]
  simp only [View.ld_unit_zero (S := S5000x128) kbody_zero2, View.ld_unit_zero (S := S256x128) kbody_zero2,
    View.ld_unit_zero (S := S128) kbody_zero1]
  unfold k1_pay1 k1_pay2 k1_pay3
  rw [shapeCast_self x0, shapeCast_self x1, shapeCast_self x2, shapeCast_self x3]
  -- the stored value is the normalisation chain over the clamped sum of the convolution and the features block
  refine (ln_apply (maximumf (addf (addf (matmul dot_S5000x256_S256x128_S5000x128_1_0_0_1_n_n none
        (concatenate S5000x256 1 [⟨S5000x128, truncf .bf16 x0 bitsLt_bf16_f32⟩, ⟨S5000x128, truncf .bf16 x1 bitsLt_bf16_f32⟩]
          concatenates_S5000x128_S5000x128_S5000x256_d1)
        (truncf .bf16 x2 bitsLt_bf16_f32) (constant S5000x128 .f32 0x00000000#32))
      (broadcastTo S5000x128 (shapeCast S1x128 x3 shapeCasts_S128_S1x128) broadcasts_S1x128_S5000x128) : FVec Ideal S5000x128 .f32) x1)
      (broadcast S5000x128 (Scalar.ofBits .f32 0x00000000#32))) x4 x5 p q).trans ?_
  unfold rowMid
  refine congrArg (fun x => lnRow (bvec x4) (bvec x5) x q) (funext fun j => ?_)
  -- row p of the clamped value, at column j: the larger of (convolution + feature) and the float zero, which is 0
  unfold brow
  rw [maximumf_apply, broadcast_apply, addf_apply, conv_apply]
  unfold brow
  exact congrArg (max _) Ideal.ofBits_zero_f32

/-- Launch 2 (the same body as launch 1). -/
theorem out2_apply (x0 x1 : Vec Ideal S5000x128 .f32) (x2 : Vec Ideal S256x128 .f32) (x3 x4 x5 : Vec Ideal S128 .f32)
    (p : Fin 5000) (q : Fin 128) :
    out2_6 (F := Ideal) x0 x1 x2 x3 x4 x5 (ix2 p q)
      = rowMid (brow x0 p) (brow x1 p) (wtop x2) (wbot x2) (bvec x3) (bvec x4) (bvec x5) q := by
  unfold out2_6
  rw [View.canon_unit_zero kbody_zero2]
  simp only [View.ld_unit_zero (S := S5000x128) kbody_zero2, View.ld_unit_zero (S := S256x128) kbody_zero2,
    View.ld_unit_zero (S := S128) kbody_zero1]
  unfold k2_pay1 k2_pay2 k2_pay3
  rw [shapeCast_self x0, shapeCast_self x1, shapeCast_self x2, shapeCast_self x3]
  -- the stored value is the normalisation chain over the clamped sum of the convolution and the features block
  refine (ln_apply (maximumf (addf (addf (matmul dot_S5000x256_S256x128_S5000x128_1_0_0_1_n_n none
        (concatenate S5000x256 1 [⟨S5000x128, truncf .bf16 x0 bitsLt_bf16_f32⟩, ⟨S5000x128, truncf .bf16 x1 bitsLt_bf16_f32⟩]
          concatenates_S5000x128_S5000x128_S5000x256_d1)
        (truncf .bf16 x2 bitsLt_bf16_f32) (constant S5000x128 .f32 0x00000000#32))
      (broadcastTo S5000x128 (shapeCast S1x128 x3 shapeCasts_S128_S1x128) broadcasts_S1x128_S5000x128) : FVec Ideal S5000x128 .f32) x1)
      (broadcast S5000x128 (Scalar.ofBits .f32 0x00000000#32))) x4 x5 p q).trans ?_
  unfold rowMid
  refine congrArg (fun x => lnRow (bvec x4) (bvec x5) x q) (funext fun j => ?_)
  -- row p of the clamped value, at column j: the larger of (convolution + feature) and the float zero, which is 0
  unfold brow
  rw [maximumf_apply, broadcast_apply, addf_apply, conv_apply]
  unfold brow
  exact congrArg (max _) Ideal.ofBits_zero_f32

/-- Launch 3 (the convolution alone). -/
theorem out3_apply (x0 x1 : Vec Ideal S5000x128 .f32) (x2 : Vec Ideal S256x128 .f32) (x3 x4 x5 : Vec Ideal S128 .f32)
    (p : Fin 5000) (q : Fin 128) :
    out3_6 (F := Ideal) x0 x1 x2 x3 x4 x5 (ix2 p q)
      = convRow (brow x0 p) (brow x1 p) (wtop x2) (wbot x2) (bvec x3) q := by
  unfold out3_6
  rw [View.canon_unit_zero kbody_zero2]
  simp only [View.ld_unit_zero (S := S5000x128) kbody_zero2, View.ld_unit_zero (S := S256x128) kbody_zero2,
    View.ld_unit_zero (S := S128) kbody_zero1]
  unfold k3_pay1
  rw [shapeCast_self x0, shapeCast_self x1, shapeCast_self x2, shapeCast_self x3]
  exact conv_apply x0 x1 x2 x3 p q

end Cert.KernelIdeal.Body

end
-- ==== Proof.KRegion.lean ====
/-
  From blocks to arrays. Launch K runs its body at 20 grid points; point t reads rows 5000·t … 5000·t + 4999 of the
  aggregate and of the features and writes the same rows of the result, all 128 columns. The blocks tile the result
  array, so after the launch the array is the layer's row function applied to every row.
-/
import proofs.«410806_j56659208569289_3_alg».proof.Proof.KBody

set_option maxRecDepth 16384

noncomputable section

namespace Cert.KernelIdeal.Region

open Idealize.ShloMosaic Idealize.ShloMosaic.ValueIdx Idealize.ShloMosaic.TcCoe Idealize.SL.Sem
open Cert.KernelIdeal Cert.KernelIdeal.Gen Cert.KernelIdeal.Body Cert.GraphConv

/-- Row r of a node array as the kernel's program types it. -/
def nrow (X : Vec Ideal S100000x128 .f32) (r : Fin 100000) : Fin 128 → EReal := fun k => X (ix2 r k)

/-- A launch of the first kind over whole arrays. -/
def regFirst (A H : Vec Ideal S100000x128 .f32) (W : Vec Ideal S256x128 .f32) (b g β : Vec Ideal S128 .f32) : Vec Ideal S100000x128 .f32 :=
  fun i => rowFirst (nrow A (i 0)) (nrow H (i 0)) (wtop W) (wbot W) (bvec b) (bvec g) (bvec β) (i 1)
/-- A launch of the middle kind over whole arrays. -/
def regMid (A H : Vec Ideal S100000x128 .f32) (W : Vec Ideal S256x128 .f32) (b g β : Vec Ideal S128 .f32) : Vec Ideal S100000x128 .f32 :=
  fun i => rowMid (nrow A (i 0)) (nrow H (i 0)) (wtop W) (wbot W) (bvec b) (bvec g) (bvec β) (i 1)
/-- The last launch over whole arrays. -/
def regLast (A H : Vec Ideal S100000x128 .f32) (W : Vec Ideal S256x128 .f32) (b : Vec Ideal S128 .f32) : Vec Ideal S100000x128 .f32 :=
  fun i => convRow (nrow A (i 0)) (nrow H (i 0)) (wtop W) (wbot W) (bvec b) (i 1)

variable (V : (c : Dev nD) → (b : Ref sig .tc) → Buf (Elt Ideal) ((c : Thread nD τ).loc b))

/-! ## Launch 0 -/

/-- The index maps of launch 0 over its 20 grid points: the two row windows and the result sit at block (t, 0),
    the weight and the three vectors at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- Row p of the block of the aggregate at point t of launch 0 is row 5000·t + p of the aggregate. -/
theorem row0_0 (c : Dev nD) (t : Fin cfg0.N) (p : Fin 5000) (r : Fin 100000) (hr : r.val = 5000 * t.val + p.val) :
    brow (iblk0 V c 0 t) p = nrow (V c main_v14) r := by
  funext k
  show iblk0 V c 0 t (ix2 p k) = V c main_v14 (ix2 r k)
  unfold iblk0
  rw [View.read_apply]
  show V c main_v14 _ = V c main_v14 _
  congr 1
  funext a
  apply Fin.ext
  match a with
  | ⟨0, _⟩ => show win0_0.index t (0 : Fin 2) * 5000 + 1 * p.val = r.val; rw [(idx0 t).1, hr]; omega
  | ⟨1, _⟩ => show win0_0.index t (1 : Fin 2) * 128 + 1 * k.val = k.val; rw [(idx0 t).2.1]; omega

/-- Row p of the block of the features at point t of launch 0 is row 5000·t + p of the features. -/
theorem row0_1 (c : Dev nD) (t : Fin cfg0.N) (p : Fin 5000) (r : Fin 100000) (hr : r.val = 5000 * t.val + p.val) :
    brow (iblk0 V c 1 t) p = nrow (V c main_arg0) r := by
  funext k
  show iblk0 V c 1 t (ix2 p k) = V c main_arg0 (ix2 r k)
  unfold iblk0
  rw [View.read_apply]
  show V c main_arg0 _ = V c main_arg0 _
  congr 1
  funext a
  apply Fin.ext
  match a with
  | ⟨0, _⟩ => show win0_1.index t (0 : Fin 2) * 5000 + 1 * p.val = r.val; rw [(idx0 t).2.2.1, hr]; omega
  | ⟨1, _⟩ => show win0_1.index t (1 : Fin 2) * 128 + 1 * k.val = k.val; rw [(idx0 t).2.2.2.1]; omega

/-- The block of the stacked weight at every point of launch 0 is the whole weight. -/
theorem whole0_2 (c : Dev nD) (t : Fin cfg0.N) : (iblk0 V c 2 t : Vec Ideal S256x128 .f32) = V c main_v16 := by
  funext y
  unfold iblk0
  rw [View.read_apply]
  show V c main_v16 _ = V c main_v16 y
  congr 1
  funext a
  apply Fin.ext
  match a with
  | ⟨0, _⟩ => show win0_2.index t (0 : Fin 2) * 256 + 1 * (y 0).val = (y 0).val; rw [(idx0 t).2.2.2.2.1]; omega
  | ⟨1, _⟩ => show win0_2.index t (1 : Fin 2) * 128 + 1 * (y 1).val = (y 1).val; rw [(idx0 t).2.2.2.2.2.1]; omega

/-- The block of the bias at every point of launch 0 is the whole bias. -/
theorem whole0_3 (c : Dev nD) (t : Fin cfg0.N) : (iblk0 V c 3 t : Vec Ideal S128 .f32) = V c main_v18 := by
  funext y
  unfold iblk0
  rw [View.read_apply]
  show V c main_v18 _ = V c main_v18 y
  congr 1
  funext a
  apply Fin.ext
  match a with
  | ⟨0, _⟩ => show win0_3.index t (0 : Fin 1) * 128 + 1 * (y 0).val = (y 0).val; rw [(idx0 t).2.2.2.2.2.2.1]; omega

/-- The block of the scale at every point of launch 0 is the whole scale. -/
theorem whole0_4 (c : Dev nD) (t : Fin cfg0.N) : (iblk0 V c 4 t : Vec Ideal S128 .f32) = V c main_arg5 := by
  funext y
  unfold iblk0
  rw [View.read_apply]
  show V c main_arg5 _ = V c main_arg5 y
  congr 1
  funext a
  apply Fin.ext
  match a with
  | ⟨0, _⟩ => show win0_4.index t (0 : Fin 1) * 128 + 1 * (y 0).val = (y 0).val; rw [(idx0 t).2.2.2.2.2.2.2.1]; omega

/-- The block of the shift at every point of launch 0 is the whole shift. -/
theorem whole0_5 (c : Dev nD) (t : Fin cfg0.N) : (iblk0 V c 5 t : Vec Ideal S128 .f32) = V c main_arg6 := by
  funext y
  unfold iblk0
  rw [View.read_apply]
  show V c main_arg6 _ = V c main_arg6 y
  congr 1
  funext a
  apply Fin.ext
  match a with
  | ⟨0, _⟩ => show win0_5.index t (0 : Fin 1) * 128 + 1 * (y 0).val = (y 0).val; rw [(idx0 t).2.2.2.2.2.2.2.2.1]; omega

/-- What point t of launch 0 writes back is block t of the whole-array function: entry (p, q) of the stored block
    is the row function of rows 5000·t + p of the two node arrays, at column q. -/
theorem flushed0 (c : Dev nD) (t : Fin cfg0.N) :
    (dat0 V c).flushed 6 t = ((cfg0.win 6).blk t).view.read (Elt Ideal)
      (regFirst (V c main_v14) (V c main_arg0) (V c main_v16) (V c main_v18) (V c main_arg5) (V c main_arg6)) := by
  show (cfg0.win 6).cut (grid0.coords t) ((dat0 V c).after 6 t) = _
  rw [after0_6]
  funext y
  obtain ⟨p, q, rfl⟩ : ∃ (p : Fin 5000) (q : Fin 128), y = ix2 p q := ⟨y 0, y 1, eq_ix2 y⟩
  rw [View.read_apply]
  generalize hi : ((cfg0.win 6).blk t).view.emb (ix2 p q) = i
  have h0 : (i 0).val = 5000 * t.val + p.val := by
    rw [← hi]
    show win0_6.index t (0 : Fin 2) * 5000 + 1 * p.val = _
    rw [(idx0 t).2.2.2.2.2.2.2.2.2.1]; omega
  have h1 : i 1 = q := by
    rw [← hi]
    apply Fin.ext
    show win0_6.index t (1 : Fin 2) * 128 + 1 * q.val = _
    rw [(idx0 t).2.2.2.2.2.2.2.2.2.2]; omega
  show out0_6 (F := Ideal) (iblk0 V c 0 t) (iblk0 V c 1 t) (iblk0 V c 2 t) (iblk0 V c 3 t) (iblk0 V c 4 t) (iblk0 V c 5 t) (ix2 p q)
    = rowFirst (nrow (V c main_v14) (i 0)) (nrow (V c main_arg0) (i 0)) (wtop (V c main_v16)) (wbot (V c main_v16))
        (bvec (V c main_v18)) (bvec (V c main_arg5)) (bvec (V c main_arg6)) (i 1)
  rw [out0_apply, row0_0 V c t p (i 0) h0, row0_1 V c t p (i 0) h0, whole0_2, whole0_3, whole0_4, whole0_5, h1]

/-- An index of the result array is in point t's block of launch 0 iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- Row r of the result lies in the block of point r / 5000: the 20 blocks of launch 0 tile the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_6 _, ?_⟩
  rw [mem_blk0]
  have e0 : win0_6.index ⟨(i 0).val / 5000, ht⟩ (0 : Fin 2) = (i 0).val / 5000 := (idx0 ⟨(i 0).val / 5000, ht⟩).2.2.2.2.2.2.2.2.2.1
  have e1 : win0_6.index ⟨(i 0).val / 5000, ht⟩ (1 : Fin 2) = 0 := (idx0 ⟨(i 0).val / 5000, ht⟩).2.2.2.2.2.2.2.2.2.2
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

theorem region0_value (c : Dev nD) :
    (dat0 V c).arrAt 6 cfg0.N = regFirst (V c main_v14) (V c main_arg0) (V c main_v16) (V c main_v18) (V c main_arg5) (V c main_arg6) := by
  exact (dat0 V c).arrAt_eq_of_cover 6 _ (fun t _ => flushed0 V c t) cover0

/-! ## Launch 1 -/

/-- The index maps of launch 1 over its 20 grid points: the two row windows and the result sit at block (t, 0),
    the weight and the three vectors at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- Row p of the block of the aggregate at point t of launch 1 is row 5000·t + p of the aggregate. -/
theorem row1_0 (c : Dev nD) (t : Fin cfg1.N) (p : Fin 5000) (r : Fin 100000) (hr : r.val = 5000 * t.val + p.val) :
    brow (iblk1 V c 0 t) p = nrow (V c main_v29) r := by
  funext k
  show iblk1 V c 0 t (ix2 p k) = V c main_v29 (ix2 r k)
  unfold iblk1
  rw [View.read_apply]
  show V c main_v29 _ = V c main_v29 _
  congr 1
  funext a
  apply Fin.ext
  match a with
  | ⟨0, _⟩ => show win1_0.index t (0 : Fin 2) * 5000 + 1 * p.val = r.val; rw [(idx1 t).1, hr]; omega
  | ⟨1, _⟩ => show win1_0.index t (1 : Fin 2) * 128 + 1 * k.val = k.val; rw [(idx1 t).2.1]; omega

/-- Row p of the block of the features at point t of launch 1 is row 5000·t + p of the features. -/
theorem row1_1 (c : Dev nD) (t : Fin cfg1.N) (p : Fin 5000) (r : Fin 100000) (hr : r.val = 5000 * t.val + p.val) :
    brow (iblk1 V c 1 t) p = nrow (V c main_v19) r := by
  funext k
  show iblk1 V c 1 t (ix2 p k) = V c main_v19 (ix2 r k)
  unfold iblk1
  rw [View.read_apply]
  show V c main_v19 _ = V c main_v19 _
  congr 1
  funext a
  apply Fin.ext
  match a with
  | ⟨0, _⟩ => show win1_1.index t (0 : Fin 2) * 5000 + 1 * p.val = r.val; rw [(idx1 t).2.2.1, hr]; omega
  | ⟨1, _⟩ => show win1_1.index t (1 : Fin 2) * 128 + 1 * k.val = k.val; rw [(idx1 t).2.2.2.1]; omega

/-- The block of the stacked weight at every point of launch 1 is the whole weight. -/
theorem whole1_2 (c : Dev nD) (t : Fin cfg1.N) : (iblk1 V c 2 t : Vec Ideal S256x128 .f32) = V c main_v31 := by
  funext y
  unfold iblk1
  rw [View.read_apply]
  show V c main_v31 _ = V c main_v31 y
  congr 1
  funext a
  apply Fin.ext
  match a with
  | ⟨0, _⟩ => show win1_2.index t (0 : Fin 2) * 256 + 1 * (y 0).val = (y 0).val; rw [(idx1 t).2.2.2.2.1]; omega
  | ⟨1, _⟩ => show win1_2.index t (1 : Fin 2) * 128 + 1 * (y 1).val = (y 1).val; rw [(idx1 t).2.2.2.2.2.1]; omega

/-- The block of the bias at every point of launch 1 is the whole bias. -/
theorem whole1_3 (c : Dev nD) (t : Fin cfg1.N) : (iblk1 V c 3 t : Vec Ideal S128 .f32) = V c main_v33 := by
  funext y
  unfold iblk1
  rw [View.read_apply]
  show V c main_v33 _ = V c main_v33 y
  congr 1
  funext a
  apply Fin.ext
  match a with
  | ⟨0, _⟩ => show win1_3.index t (0 : Fin 1) * 128 + 1 * (y 0).val = (y 0).val; rw [(idx1 t).2.2.2.2.2.2.1]; omega

/-- The block of the scale at every point of launch 1 is the whole scale. -/
theorem whole1_4 (c : Dev nD) (t : Fin cfg1.N) : (iblk1 V c 4 t : Vec Ideal S128 .f32) = V c main_arg5 := by
  funext y
  unfold iblk1
  rw [View.read_apply]
  show V c main_arg5 _ = V c main_arg5 y
  congr 1
  funext a
  apply Fin.ext
  match a with
  | ⟨0, _⟩ => show win1_4.index t (0 : Fin 1) * 128 + 1 * (y 0).val = (y 0).val; rw [(idx1 t).2.2.2.2.2.2.2.1]; omega

/-- The block of the shift at every point of launch 1 is the whole shift. -/
theorem whole1_5 (c : Dev nD) (t : Fin cfg1.N) : (iblk1 V c 5 t : Vec Ideal S128 .f32) = V c main_arg6 := by
  funext y
  unfold iblk1
  rw [View.read_apply]
  show V c main_arg6 _ = V c main_arg6 y
  congr 1
  funext a
  apply Fin.ext
  match a with
  | ⟨0, _⟩ => show win1_5.index t (0 : Fin 1) * 128 + 1 * (y 0).val = (y 0).val; rw [(idx1 t).2.2.2.2.2.2.2.2.1]; omega

/-- What point t of launch 1 writes back is block t of the whole-array function: entry (p, q) of the stored block
    is the row function of rows 5000·t + p of the two node arrays, at column q. -/
theorem flushed1 (c : Dev nD) (t : Fin cfg1.N) :
    (dat1 V c).flushed 6 t = ((cfg1.win 6).blk t).view.read (Elt Ideal)
      (regMid (V c main_v29) (V c main_v19) (V c main_v31) (V c main_v33) (V c main_arg5) (V c main_arg6)) := by
  show (cfg1.win 6).cut (grid1.coords t) ((dat1 V c).after 6 t) = _
  rw [after1_6]
  funext y
  obtain ⟨p, q, rfl⟩ : ∃ (p : Fin 5000) (q : Fin 128), y = ix2 p q := ⟨y 0, y 1, eq_ix2 y⟩
  rw [View.read_apply]
  generalize hi : ((cfg1.win 6).blk t).view.emb (ix2 p q) = i
  have h0 : (i 0).val = 5000 * t.val + p.val := by
    rw [← hi]
    show win1_6.index t (0 : Fin 2) * 5000 + 1 * p.val = _
    rw [(idx1 t).2.2.2.2.2.2.2.2.2.1]; omega
  have h1 : i 1 = q := by
    rw [← hi]
    apply Fin.ext
    show win1_6.index t (1 : Fin 2) * 128 + 1 * q.val = _
    rw [(idx1 t).2.2.2.2.2.2.2.2.2.2]; omega
  show out1_6 (F := Ideal) (iblk1 V c 0 t) (iblk1 V c 1 t) (iblk1 V c 2 t) (iblk1 V c 3 t) (iblk1 V c 4 t) (iblk1 V c 5 t) (ix2 p q)
    = rowMid (nrow (V c main_v29) (i 0)) (nrow (V c main_v19) (i 0)) (wtop (V c main_v31)) (wbot (V c main_v31))
        (bvec (V c main_v33)) (bvec (V c main_arg5)) (bvec (V c main_arg6)) (i 1)
  rw [out1_apply, row1_0 V c t p (i 0) h0, row1_1 V c t p (i 0) h0, whole1_2, whole1_3, whole1_4, whole1_5, h1]

/-- An index of the result array is in point t's block of launch 1 iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

/-- Row r of the result lies in the block of point r / 5000: the 20 blocks of launch 1 tile the array. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_6 _, ?_⟩
  rw [mem_blk1]
  have e0 : win1_6.index ⟨(i 0).val / 5000, ht⟩ (0 : Fin 2) = (i 0).val / 5000 := (idx1 ⟨(i 0).val / 5000, ht⟩).2.2.2.2.2.2.2.2.2.1
  have e1 : win1_6.index ⟨(i 0).val / 5000, ht⟩ (1 : Fin 2) = 0 := (idx1 ⟨(i 0).val / 5000, ht⟩).2.2.2.2.2.2.2.2.2.2
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

theorem region1_value (c : Dev nD) :
    (dat1 V c).arrAt 6 cfg1.N = regMid (V c main_v29) (V c main_v19) (V c main_v31) (V c main_v33) (V c main_arg5) (V c main_arg6) := by
  exact (dat1 V c).arrAt_eq_of_cover 6 _ (fun t _ => flushed1 V c t) cover1

/-! ## Launch 2 -/

/-- The index maps of launch 2 over its 20 grid points: the two row windows and the result sit at block (t, 0),
    the weight and the three vectors at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- Row p of the block of the aggregate at point t of launch 2 is row 5000·t + p of the aggregate. -/
theorem row2_0 (c : Dev nD) (t : Fin cfg2.N) (p : Fin 5000) (r : Fin 100000) (hr : r.val = 5000 * t.val + p.val) :
    brow (iblk2 V c 0 t) p = nrow (V c main_v44) r := by
  funext k
  show iblk2 V c 0 t (ix2 p k) = V c main_v44 (ix2 r k)
  unfold iblk2
  rw [View.read_apply]
  show V c main_v44 _ = V c main_v44 _
  congr 1
  funext a
  apply Fin.ext
  match a with
  | ⟨0, _⟩ => show win2_0.index t (0 : Fin 2) * 5000 + 1 * p.val = r.val; rw [(idx2 t).1, hr]; omega
  | ⟨1, _⟩ => show win2_0.index t (1 : Fin 2) * 128 + 1 * k.val = k.val; rw [(idx2 t).2.1]; omega

/-- Row p of the block of the features at point t of launch 2 is row 5000·t + p of the features. -/
theorem row2_1 (c : Dev nD) (t : Fin cfg2.N) (p : Fin 5000) (r : Fin 100000) (hr : r.val = 5000 * t.val + p.val) :
    brow (iblk2 V c 1 t) p = nrow (V c main_v34) r := by
  funext k
  show iblk2 V c 1 t (ix2 p k) = V c main_v34 (ix2 r k)
  unfold iblk2
  rw [View.read_apply]
  show V c main_v34 _ = V c main_v34 _
  congr 1
  funext a
  apply Fin.ext
  match a with
  | ⟨0, _⟩ => show win2_1.index t (0 : Fin 2) * 5000 + 1 * p.val = r.val; rw [(idx2 t).2.2.1, hr]; omega
  | ⟨1, _⟩ => show win2_1.index t (1 : Fin 2) * 128 + 1 * k.val = k.val; rw [(idx2 t).2.2.2.1]; omega

/-- The block of the stacked weight at every point of launch 2 is the whole weight. -/
theorem whole2_2 (c : Dev nD) (t : Fin cfg2.N) : (iblk2 V c 2 t : Vec Ideal S256x128 .f32) = V c main_v46 := by
  funext y
  unfold iblk2
  rw [View.read_apply]
  show V c main_v46 _ = V c main_v46 y
  congr 1
  funext a
  apply Fin.ext
  match a with
  | ⟨0, _⟩ => show win2_2.index t (0 : Fin 2) * 256 + 1 * (y 0).val = (y 0).val; rw [(idx2 t).2.2.2.2.1]; omega
  | ⟨1, _⟩ => show win2_2.index t (1 : Fin 2) * 128 + 1 * (y 1).val = (y 1).val; rw [(idx2 t).2.2.2.2.2.1]; omega

/-- The block of the bias at every point of launch 2 is the whole bias. -/
theorem whole2_3 (c : Dev nD) (t : Fin cfg2.N) : (iblk2 V c 3 t : Vec Ideal S128 .f32) = V c main_v48 := by
  funext y
  unfold iblk2
  rw [View.read_apply]
  show V c main_v48 _ = V c main_v48 y
  congr 1
  funext a
  apply Fin.ext
  match a with
  | ⟨0, _⟩ => show win2_3.index t (0 : Fin 1) * 128 + 1 * (y 0).val = (y 0).val; rw [(idx2 t).2.2.2.2.2.2.1]; omega

/-- The block of the scale at every point of launch 2 is the whole scale. -/
theorem whole2_4 (c : Dev nD) (t : Fin cfg2.N) : (iblk2 V c 4 t : Vec Ideal S128 .f32) = V c main_arg5 := by
  funext y
  unfold iblk2
  rw [View.read_apply]
  show V c main_arg5 _ = V c main_arg5 y
  congr 1
  funext a
  apply Fin.ext
  match a with
  | ⟨0, _⟩ => show win2_4.index t (0 : Fin 1) * 128 + 1 * (y 0).val = (y 0).val; rw [(idx2 t).2.2.2.2.2.2.2.1]; omega

/-- The block of the shift at every point of launch 2 is the whole shift. -/
theorem whole2_5 (c : Dev nD) (t : Fin cfg2.N) : (iblk2 V c 5 t : Vec Ideal S128 .f32) = V c main_arg6 := by
  funext y
  unfold iblk2
  rw [View.read_apply]
  show V c main_arg6 _ = V c main_arg6 y
  congr 1
  funext a
  apply Fin.ext
  match a with
  | ⟨0, _⟩ => show win2_5.index t (0 : Fin 1) * 128 + 1 * (y 0).val = (y 0).val; rw [(idx2 t).2.2.2.2.2.2.2.2.1]; omega

/-- What point t of launch 2 writes back is block t of the whole-array function: entry (p, q) of the stored block
    is the row function of rows 5000·t + p of the two node arrays, at column q. -/
theorem flushed2 (c : Dev nD) (t : Fin cfg2.N) :
    (dat2 V c).flushed 6 t = ((cfg2.win 6).blk t).view.read (Elt Ideal)
      (regMid (V c main_v44) (V c main_v34) (V c main_v46) (V c main_v48) (V c main_arg5) (V c main_arg6)) := by
  show (cfg2.win 6).cut (grid2.coords t) ((dat2 V c).after 6 t) = _
  rw [after2_6]
  funext y
  obtain ⟨p, q, rfl⟩ : ∃ (p : Fin 5000) (q : Fin 128), y = ix2 p q := ⟨y 0, y 1, eq_ix2 y⟩
  rw [View.read_apply]
  generalize hi : ((cfg2.win 6).blk t).view.emb (ix2 p q) = i
  have h0 : (i 0).val = 5000 * t.val + p.val := by
    rw [← hi]
    show win2_6.index t (0 : Fin 2) * 5000 + 1 * p.val = _
    rw [(idx2 t).2.2.2.2.2.2.2.2.2.1]; omega
  have h1 : i 1 = q := by
    rw [← hi]
    apply Fin.ext
    show win2_6.index t (1 : Fin 2) * 128 + 1 * q.val = _
    rw [(idx2 t).2.2.2.2.2.2.2.2.2.2]; omega
  show out2_6 (F := Ideal) (iblk2 V c 0 t) (iblk2 V c 1 t) (iblk2 V c 2 t) (iblk2 V c 3 t) (iblk2 V c 4 t) (iblk2 V c 5 t) (ix2 p q)
    = rowMid (nrow (V c main_v44) (i 0)) (nrow (V c main_v34) (i 0)) (wtop (V c main_v46)) (wbot (V c main_v46))
        (bvec (V c main_v48)) (bvec (V c main_arg5)) (bvec (V c main_arg6)) (i 1)
  rw [out2_apply, row2_0 V c t p (i 0) h0, row2_1 V c t p (i 0) h0, whole2_2, whole2_3, whole2_4, whole2_5, h1]

/-- An index of the result array is in point t's block of launch 2 iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v49).slice (win2_6.rect t)).set ↔ _
  rw [View.set_slice_whole, Rect.mem_set_unit]
  exact Iff.rfl

/-- Row r of the result lies in the block of point r / 5000: the 20 blocks of launch 2 tile the array. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_6 _, ?_⟩
  rw [mem_blk2]
  have e0 : win2_6.index ⟨(i 0).val / 5000, ht⟩ (0 : Fin 2) = (i 0).val / 5000 := (idx2 ⟨(i 0).val / 5000, ht⟩).2.2.2.2.2.2.2.2.2.1
  have e1 : win2_6.index ⟨(i 0).val / 5000, ht⟩ (1 : Fin 2) = 0 := (idx2 ⟨(i 0).val / 5000, ht⟩).2.2.2.2.2.2.2.2.2.2
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]; omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]; omega

theorem region2_value (c : Dev nD) :
    (dat2 V c).arrAt 6 cfg2.N = regMid (V c main_v44) (V c main_v34) (V c main_v46) (V c main_v48) (V c main_arg5) (V c main_arg6) := by
  exact (dat2 V c).arrAt_eq_of_cover 6 _ (fun t _ => flushed2 V c t) cover2

/-! ## Launch 3 -/

/-- The index maps of launch 3 over its 20 grid points: the two row windows and the result sit at block (t, 0),
    the weight and the three vectors at block 0. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0 ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- Row p of the block of the aggregate at point t of launch 3 is row 5000·t + p of the aggregate. -/
theorem row3_0 (c : Dev nD) (t : Fin cfg3.N) (p : Fin 5000) (r : Fin 100000) (hr : r.val = 5000 * t.val + p.val) :
    brow (iblk3 V c 0 t) p = nrow (V c main_v59) r := by
  funext k
  show iblk3 V c 0 t (ix2 p k) = V c main_v59 (ix2 r k)
  unfold iblk3
  rw [View.read_apply]
  show V c main_v59 _ = V c main_v59 _
  congr 1
  funext a
  apply Fin.ext
  match a with
  | ⟨0, _⟩ => show win3_0.index t (0 : Fin 2) * 5000 + 1 * p.val = r.val; rw [(idx3 t).1, hr]; omega
  | ⟨1, _⟩ => show win3_0.index t (1 : Fin 2) * 128 + 1 * k.val = k.val; rw [(idx3 t).2.1]; omega

/-- Row p of the block of the features at point t of launch 3 is row 5000·t + p of the features. -/
theorem row3_1 (c : Dev nD) (t : Fin cfg3.N) (p : Fin 5000) (r : Fin 100000) (hr : r.val = 5000 * t.val + p.val) :
    brow (iblk3 V c 1 t) p = nrow (V c main_v49) r := by
  funext k
  show iblk3 V c 1 t (ix2 p k) = V c main_v49 (ix2 r k)
  unfold iblk3
  rw [View.read_apply]
  show V c main_v49 _ = V c main_v49 _
  congr 1
  funext a
  apply Fin.ext
  match a with
  | ⟨0, _⟩ => show win3_1.index t (0 : Fin 2) * 5000 + 1 * p.val = r.val; rw [(idx3 t).2.2.1, hr]; omega
  | ⟨1, _⟩ => show win3_1.index t (1 : Fin 2) * 128 + 1 * k.val = k.val; rw [(idx3 t).2.2.2.1]; omega

/-- The block of the stacked weight at every point of launch 3 is the whole weight. -/
theorem whole3_2 (c : Dev nD) (t : Fin cfg3.N) : (iblk3 V c 2 t : Vec Ideal S256x128 .f32) = V c main_v61 := by
  funext y
  unfold iblk3
  rw [View.read_apply]
  show V c main_v61 _ = V c main_v61 y
  congr 1
  funext a
  apply Fin.ext
  match a with
  | ⟨0, _⟩ => show win3_2.index t (0 : Fin 2) * 256 + 1 * (y 0).val = (y 0).val; rw [(idx3 t).2.2.2.2.1]; omega
  | ⟨1, _⟩ => show win3_2.index t (1 : Fin 2) * 128 + 1 * (y 1).val = (y 1).val; rw [(idx3 t).2.2.2.2.2.1]; omega

/-- The block of the bias at every point of launch 3 is the whole bias. -/
theorem whole3_3 (c : Dev nD) (t : Fin cfg3.N) : (iblk3 V c 3 t : Vec Ideal S128 .f32) = V c main_v63 := by
  funext y
  unfold iblk3
  rw [View.read_apply]
  show V c main_v63 _ = V c main_v63 y
  congr 1
  funext a
  apply Fin.ext
  match a with
  | ⟨0, _⟩ => show win3_3.index t (0 : Fin 1) * 128 + 1 * (y 0).val = (y 0).val; rw [(idx3 t).2.2.2.2.2.2.1]; omega

/-- What point t of launch 3 writes back is block t of the whole-array function: entry (p, q) of the stored block
    is the row function of rows 5000·t + p of the two node arrays, at column q. -/
theorem flushed3 (c : Dev nD) (t : Fin cfg3.N) :
    (dat3 V c).flushed 6 t = ((cfg3.win 6).blk t).view.read (Elt Ideal)
      (regLast (V c main_v59) (V c main_v49) (V c main_v61) (V c main_v63)) := by
  show (cfg3.win 6).cut (grid3.coords t) ((dat3 V c).after 6 t) = _
  rw [after3_6]
  funext y
  obtain ⟨p, q, rfl⟩ : ∃ (p : Fin 5000) (q : Fin 128), y = ix2 p q := ⟨y 0, y 1, eq_ix2 y⟩
  rw [View.read_apply]
  generalize hi : ((cfg3.win 6).blk t).view.emb (ix2 p q) = i
  have h0 : (i 0).val = 5000 * t.val + p.val := by
    rw [← hi]
    show win3_6.index t (0 : Fin 2) * 5000 + 1 * p.val = _
    rw [(idx3 t).2.2.2.2.2.2.2.2.2.1]; omega
  have h1 : i 1 = q := by
    rw [← hi]
    apply Fin.ext
    show win3_6.index t (1 : Fin 2) * 128 + 1 * q.val = _
    rw [(idx3 t).2.2.2.2.2.2.2.2.2.2]; omega
  show out3_6 (F := Ideal) (iblk3 V c 0 t) (iblk3 V c 1 t) (iblk3 V c 2 t) (iblk3 V c 3 t) (iblk3 V c 4 t) (iblk3 V c 5 t) (ix2 p q)
    = convRow (nrow (V c main_v59) (i 0)) (nrow (V c main_v49) (i 0)) (wtop (V c main_v61)) (wbot (V c main_v61))
        (bvec (V c main_v63)) (i 1)
  rw [out3_apply, row3_0 V c t p (i 0) h0, row3_1 V c t p (i 0) h0, whole3_2, whole3_3, h1]

/-- An index of the result array is in point t's block of launch 3 iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v64).slice (win3_6.rect t)).set ↔ _
  rw [View.set_slice_whole, Rect.mem_set_unit]
  exact Iff.rfl

/-- Row r of the result lies in the block of point r / 5000: the 20 blocks of launch 3 tile the array. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_6 _, ?_⟩
  rw [mem_blk3]
  have e0 : win3_6.index ⟨(i 0).val / 5000, ht⟩ (0 : Fin 2) = (i 0).val / 5000 := (idx3 ⟨(i 0).val / 5000, ht⟩).2.2.2.2.2.2.2.2.2.1
  have e1 : win3_6.index ⟨(i 0).val / 5000, ht⟩ (1 : Fin 2) = 0 := (idx3 ⟨(i 0).val / 5000, ht⟩).2.2.2.2.2.2.2.2.2.2
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]; omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]; omega

theorem region3_value (c : Dev nD) :
    (dat3 V c).arrAt 6 cfg3.N = regLast (V c main_v59) (V c main_v49) (V c main_v61) (V c main_v63) := by
  exact (dat3 V c).arrAt_eq_of_cover 6 _ (fun t _ => flushed3 V c t) cover3

end Cert.KernelIdeal.Region

end
-- ==== Proof.KLayout.lean ====
/-
  The weights as the launches see them. Before the first launch the host stacks the two weight tables along their
  middle axis: entry (l, k, j) of the 4 × 256 × 128 stack is Wrel (l, k, j) for k < 128 and Wroot (l, k − 128, j) for
  k ≥ 128. Layer l's launch gets slice l of the stack with the unit axis dropped, and row l of the bias table. So the
  first 128 rows of layer l's stacked weight are layer l's Wrel, the last 128 its Wroot.
-/
import proofs.«410806_j56659208569289_3_alg».proof.Proof.KDefs
import Idealize.ShloMosaic.Lib.Pipeline.Value
import Idealize.ShloMosaic.Lib.ValueLayout

noncomputable section

namespace Cert.KernelIdeal.Layout

open Idealize.ShloMosaic Idealize.ShloMosaic.ValueIdx Cert.KernelIdeal Cert.KernelIdeal.Gen Cert.KernelIdeal.Body Cert.GraphConv

/-- The two weight tables stacked along the middle axis. -/
def stackW (Wrel Wroot : Vec Ideal S4x128x128 .f32) : Vec Ideal S4x256x128 .f32 :=
  concatenate S4x256x128 1 [⟨S4x128x128, Wrel⟩, ⟨S4x128x128, Wroot⟩] concatenates_S4x128x128_S4x128x128_S4x256x128_d1

/-! Reading the stack, a slice of it and a row of the bias table at explicit coordinates. -/

/-- Slice `n` of a 4 × 256 × 128 array with its unit axis dropped reads, at (k, j), the array at (n, k, j): the cast
keeps the row-major position, which puts 0 on the unit axis, and the slice adds its offsets (n, 0, 0). -/
theorem sliceCast_apply (n : Nat) (hn : n < 4) (Wst : Vec Ideal S4x256x128 .f32)
    (h : S4x256x128.Slices ![n, 0, 0] S1x256x128) (k : Fin 256) (j : Fin 128) :
    shapeCast S256x128 (extractStridedSlice S1x256x128 ![n, 0, 0] Wst h) shapeCasts_S1x256x128_S256x128 (ix2 k j)
      = Wst (ix3 (⟨n, hn⟩ : Fin 4) k j) :=
  (shapeCast_1ab_ab_apply _ shapeCasts_S1x256x128_S256x128 k j).trans
    (extractStridedSlice_apply ![n, 0, 0] Wst h (ix3 (0 : Fin 1) k j) (ix3 (⟨n, hn⟩ : Fin 4) k j) fun a => match a with
      | ⟨0, _⟩ => by show n = n + 0; omega
      | ⟨1, _⟩ => by show k.val = 0 + k.val; omega
      | ⟨2, _⟩ => by show j.val = 0 + j.val; omega)

/-- Row `n` of a 4 × 128 table with its unit axis dropped reads, at j, the table at (n, j). -/
theorem sliceCast1_apply (n : Nat) (hn : n < 4) (B : Vec Ideal S4x128 .f32)
    (h : S4x128.Slices ![n, 0] S1x128) (j : Fin 128) :
    shapeCast S128 (extractStridedSlice S1x128 ![n, 0] B h) shapeCasts_S1x128_S128 (ix1 j)
      = B (ix2 (⟨n, hn⟩ : Fin 4) j) :=
  (shapeCast_1a_a_apply _ shapeCasts_S1x128_S128 j).trans
    (extractStridedSlice_apply ![n, 0] B h (ix2 (0 : Fin 1) j) (ix2 (⟨n, hn⟩ : Fin 4) j) fun a => match a with
      | ⟨0, _⟩ => by show n = n + 0; omega
      | ⟨1, _⟩ => by show j.val = 0 + j.val; omega)

/-- The stack at a row k < 128 is the first table at row k: the row falls in the first piece, and the other two
coordinates are kept. -/
theorem stackW_top (Wrel Wroot : Vec Ideal S4x128x128 .f32) (l : Fin 4) (k : Fin 128) (j : Fin 128) :
    stackW Wrel Wroot (ix3 l (⟨k.val, by omega⟩ : Fin 256) j) = Wrel (ix3 l k j) :=
  concatenate_pair_apply_left (t := S4x256x128) (s₁ := S4x128x128) (s₂ := S4x128x128) 1 Wrel Wroot
    concatenates_S4x128x128_S4x128x128_S4x256x128_d1 (ix3 l (⟨k.val, by omega⟩ : Fin 256) j) rfl (ix3 l k j)
    fun b => match b with
      | ⟨0, _⟩ => rfl
      | ⟨1, _⟩ => rfl
      | ⟨2, _⟩ => rfl

/-- The stack at row 128 + k is the second table at row k: the row falls past the first piece's 128 rows, and the
second piece is read at the row less 128. -/
theorem stackW_bot (Wrel Wroot : Vec Ideal S4x128x128 .f32) (l : Fin 4) (k : Fin 128) (j : Fin 128) :
    stackW Wrel Wroot (ix3 l (⟨128 + k.val, by omega⟩ : Fin 256) j) = Wroot (ix3 l k j) :=
  concatenate_pair_apply_right (t := S4x256x128) (s₁ := S4x128x128) (s₂ := S4x128x128) 1 Wrel Wroot
    concatenates_S4x128x128_S4x128x128_S4x256x128_d1 (ix3 l (⟨128 + k.val, by omega⟩ : Fin 256) j) rfl rfl (ix3 l k j)
    (fun b => match b with
      | ⟨0, _⟩ => fun _ => rfl
      | ⟨1, _⟩ => fun hb => absurd rfl hb
      | ⟨2, _⟩ => fun _ => rfl)
    (by show k.val + 128 = 128 + k.val; omega)

/-- Layer 0's stacked weight: slice 0 of the stack, its unit axis dropped. -/
def w0 (Wst : Vec Ideal S4x256x128 .f32) : Vec Ideal S256x128 .f32 :=
  shapeCast S256x128 (extractStridedSlice S1x256x128 ![0, 0, 0] Wst slices_S4x256x128_S1x256x128_0_0_0) shapeCasts_S1x256x128_S256x128
/-- Layer 0's bias: row 0 of the bias table, its unit axis dropped. -/
def b0 (B : Vec Ideal S4x128 .f32) : Vec Ideal S128 .f32 :=
  shapeCast S128 (extractStridedSlice S1x128 ![0, 0] B slices_S4x128_S1x128_0_0) shapeCasts_S1x128_S128

theorem wtop_w0 (Wrel Wroot : Vec Ideal S4x128x128 .f32) : wtop (w0 (stackW Wrel Wroot)) = matOf Wrel 0 := by
  funext k j
  exact (sliceCast_apply 0 (by omega) (stackW Wrel Wroot) slices_S4x256x128_S1x256x128_0_0_0 (⟨k.val, by omega⟩ : Fin 256) j).trans
    (stackW_top Wrel Wroot 0 k j)
theorem wbot_w0 (Wrel Wroot : Vec Ideal S4x128x128 .f32) : wbot (w0 (stackW Wrel Wroot)) = matOf Wroot 0 := by
  funext k j
  exact (sliceCast_apply 0 (by omega) (stackW Wrel Wroot) slices_S4x256x128_S1x256x128_0_0_0 (⟨128 + k.val, by omega⟩ : Fin 256) j).trans
    (stackW_bot Wrel Wroot 0 k j)
theorem bvec_b0 (B : Vec Ideal S4x128 .f32) : bvec (b0 B) = biasOf B 0 := by
  funext j
  exact sliceCast1_apply 0 (by omega) B slices_S4x128_S1x128_0_0 j

/-- Layer 1's stacked weight: slice 1 of the stack, its unit axis dropped. -/
def w1 (Wst : Vec Ideal S4x256x128 .f32) : Vec Ideal S256x128 .f32 :=
  shapeCast S256x128 (extractStridedSlice S1x256x128 ![1, 0, 0] Wst slices_S4x256x128_S1x256x128_1_0_0) shapeCasts_S1x256x128_S256x128
/-- Layer 1's bias: row 1 of the bias table, its unit axis dropped. -/
def b1 (B : Vec Ideal S4x128 .f32) : Vec Ideal S128 .f32 :=
  shapeCast S128 (extractStridedSlice S1x128 ![1, 0] B slices_S4x128_S1x128_1_0) shapeCasts_S1x128_S128

theorem wtop_w1 (Wrel Wroot : Vec Ideal S4x128x128 .f32) : wtop (w1 (stackW Wrel Wroot)) = matOf Wrel 1 := by
  funext k j
  exact (sliceCast_apply 1 (by omega) (stackW Wrel Wroot) slices_S4x256x128_S1x256x128_1_0_0 (⟨k.val, by omega⟩ : Fin 256) j).trans
    (stackW_top Wrel Wroot 1 k j)
theorem wbot_w1 (Wrel Wroot : Vec Ideal S4x128x128 .f32) : wbot (w1 (stackW Wrel Wroot)) = matOf Wroot 1 := by
  funext k j
  exact (sliceCast_apply 1 (by omega) (stackW Wrel Wroot) slices_S4x256x128_S1x256x128_1_0_0 (⟨128 + k.val, by omega⟩ : Fin 256) j).trans
    (stackW_bot Wrel Wroot 1 k j)
theorem bvec_b1 (B : Vec Ideal S4x128 .f32) : bvec (b1 B) = biasOf B 1 := by
  funext j
  exact sliceCast1_apply 1 (by omega) B slices_S4x128_S1x128_1_0 j

/-- Layer 2's stacked weight: slice 2 of the stack, its unit axis dropped. -/
def w2 (Wst : Vec Ideal S4x256x128 .f32) : Vec Ideal S256x128 .f32 :=
  shapeCast S256x128 (extractStridedSlice S1x256x128 ![2, 0, 0] Wst slices_S4x256x128_S1x256x128_2_0_0) shapeCasts_S1x256x128_S256x128
/-- Layer 2's bias: row 2 of the bias table, its unit axis dropped. -/
def b2 (B : Vec Ideal S4x128 .f32) : Vec Ideal S128 .f32 :=
  shapeCast S128 (extractStridedSlice S1x128 ![2, 0] B slices_S4x128_S1x128_2_0) shapeCasts_S1x128_S128

theorem wtop_w2 (Wrel Wroot : Vec Ideal S4x128x128 .f32) : wtop (w2 (stackW Wrel Wroot)) = matOf Wrel 2 := by
  funext k j
  exact (sliceCast_apply 2 (by omega) (stackW Wrel Wroot) slices_S4x256x128_S1x256x128_2_0_0 (⟨k.val, by omega⟩ : Fin 256) j).trans
    (stackW_top Wrel Wroot 2 k j)
theorem wbot_w2 (Wrel Wroot : Vec Ideal S4x128x128 .f32) : wbot (w2 (stackW Wrel Wroot)) = matOf Wroot 2 := by
  funext k j
  exact (sliceCast_apply 2 (by omega) (stackW Wrel Wroot) slices_S4x256x128_S1x256x128_2_0_0 (⟨128 + k.val, by omega⟩ : Fin 256) j).trans
    (stackW_bot Wrel Wroot 2 k j)
theorem bvec_b2 (B : Vec Ideal S4x128 .f32) : bvec (b2 B) = biasOf B 2 := by
  funext j
  exact sliceCast1_apply 2 (by omega) B slices_S4x128_S1x128_2_0 j

/-- Layer 3's stacked weight: slice 3 of the stack, its unit axis dropped. -/
def w3 (Wst : Vec Ideal S4x256x128 .f32) : Vec Ideal S256x128 .f32 :=
  shapeCast S256x128 (extractStridedSlice S1x256x128 ![3, 0, 0] Wst slices_S4x256x128_S1x256x128_3_0_0) shapeCasts_S1x256x128_S256x128
/-- Layer 3's bias: row 3 of the bias table, its unit axis dropped. -/
def b3 (B : Vec Ideal S4x128 .f32) : Vec Ideal S128 .f32 :=
  shapeCast S128 (extractStridedSlice S1x128 ![3, 0] B slices_S4x128_S1x128_3_0) shapeCasts_S1x128_S128

theorem wtop_w3 (Wrel Wroot : Vec Ideal S4x128x128 .f32) : wtop (w3 (stackW Wrel Wroot)) = matOf Wrel 3 := by
  funext k j
  exact (sliceCast_apply 3 (by omega) (stackW Wrel Wroot) slices_S4x256x128_S1x256x128_3_0_0 (⟨k.val, by omega⟩ : Fin 256) j).trans
    (stackW_top Wrel Wroot 3 k j)
theorem wbot_w3 (Wrel Wroot : Vec Ideal S4x128x128 .f32) : wbot (w3 (stackW Wrel Wroot)) = matOf Wroot 3 := by
  funext k j
  exact (sliceCast_apply 3 (by omega) (stackW Wrel Wroot) slices_S4x256x128_S1x256x128_3_0_0 (⟨128 + k.val, by omega⟩ : Fin 256) j).trans
    (stackW_bot Wrel Wroot 3 k j)
theorem bvec_b3 (B : Vec Ideal S4x128 .f32) : bvec (b3 B) = biasOf B 3 := by
  funext j
  exact sliceCast1_apply 3 (by omega) B slices_S4x128_S1x128_3_0 j

end Cert.KernelIdeal.Layout

end
-- ==== Proof.KBound.lean ====
/-
  The idealized kernel's result as one function of its arguments.

  @main alternates host stretches with the four launches. Each stretch recomputes, from the edge list, the source
  index of every edge (negative indices wrapped by the node count) and the destination index, gathers the rows of
  the current features at the sources, and scatter-adds them at the destinations into a zero array: the aggregate.
  It also takes slice l of the stacked weights and row l of the bias table. The launch then applies the layer to
  every row (KRegion.lean). Reading the buffer contents at each boundary back to the launch contents — a buffer no
  operation writes keeps what it held — gives the four layers composed: Spec.lean's `net` over this aggregation.
-/
import proofs.«410806_j56659208569289_3_alg».proof.Proof.KernelRun
import proofs.«410806_j56659208569289_3_alg».proof.Proof.KRegion
import proofs.«410806_j56659208569289_3_alg».proof.Proof.KLayout
import Idealize.ShloMosaic.Lib.StableHlo.Run

set_option maxRecDepth 16384

noncomputable section

namespace Cert.KernelIdeal.Bound

open Idealize.ShloMosaic Idealize.ShloMosaic.ValueIdx Idealize.ShloMosaic.TcCoe Idealize.SL.Sem Idealize.ShloMosaic.StableHlo
open Cert.KernelIdeal Cert.KernelIdeal.Gen Cert.KernelIdeal.Body Cert.KernelIdeal.Region Cert.KernelIdeal.Layout Cert.GraphConv

section Agg
variable {F : FTy → Type} [FloatOps F]

/-- Every edge's source index: row 0 of the edge list. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
/-- Every edge's destination index: row 1 of the edge list. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The aggregate of a node array over edges given by their source and destination indices: the rows at the
    (wrapped) sources, summed into the destinations from zero. -/
def aggForm (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregation of the kernel's program, as a function of the edge list. -/
def aggK (ei : (⟨S2x1600000, .i32⟩ : BufTy).Contents (Elt F)) (h : (⟨S100000x128, .f32⟩ : BufTy).Contents (Elt F)) :
    (⟨S100000x128, .f32⟩ : BufTy).Contents (Elt F) := aggForm (srcOf ei) (dstOf ei) h

/-! ### What each host stretch computes, over any contents `W` it starts from -/

variable (W : Valuation τ sig (Elt F))

theorem ops0_v1 : StableHlo.after hostOps0 W (Proc.devRef .tc main_v1) = srcOf (W (Proc.devRef .tc main_arg1)) := by
  after_results_simp <;> rfl
theorem ops0_v3 : StableHlo.after hostOps0 W (Proc.devRef .tc main_v3) = dstOf (W (Proc.devRef .tc main_arg1)) := by
  after_results_simp <;> rfl
theorem ops0_v14 : StableHlo.after hostOps0 W (Proc.devRef .tc main_v14)
    = aggK (W (Proc.devRef .tc main_arg1)) (W (Proc.devRef .tc main_arg0)) := by
  after_results_simp <;> rfl

theorem ops1_v29 : StableHlo.after hostOps1 W (Proc.devRef .tc main_v29)
    = aggForm (W (Proc.devRef .tc main_v1)) (W (Proc.devRef .tc main_v3)) (W (Proc.devRef .tc main_v19)) := by
  after_results_simp <;> rfl
theorem ops2_v44 : StableHlo.after hostOps2 W (Proc.devRef .tc main_v44)
    = aggForm (W (Proc.devRef .tc main_v1)) (W (Proc.devRef .tc main_v3)) (W (Proc.devRef .tc main_v34)) := by
  after_results_simp <;> rfl
theorem ops3_v59 : StableHlo.after hostOps3 W (Proc.devRef .tc main_v59)
    = aggForm (W (Proc.devRef .tc main_v1)) (W (Proc.devRef .tc main_v3)) (W (Proc.devRef .tc main_v49)) := by
  after_results_simp <;> rfl

end Agg

/-! ### The same at the extended reals: the weights, the biases, and what a stretch leaves alone -/

section Stretch
variable (W : Valuation τ sig (Elt Ideal))

theorem ops0_v4 : StableHlo.after hostOps0 W (Proc.devRef .tc main_v4) = stackW (W (Proc.devRef .tc main_arg2)) (W (Proc.devRef .tc main_arg4)) := by
  after_results_simp <;> rfl
theorem ops0_v16 : StableHlo.after hostOps0 W (Proc.devRef .tc main_v16) = w0 (stackW (W (Proc.devRef .tc main_arg2)) (W (Proc.devRef .tc main_arg4))) := by
  after_results_simp <;> rfl
theorem ops0_v18 : StableHlo.after hostOps0 W (Proc.devRef .tc main_v18) = b0 (W (Proc.devRef .tc main_arg3)) := by
  after_results_simp <;> rfl
theorem ops0_keep_a0 : StableHlo.after hostOps0 W (Proc.devRef .tc main_arg0) = W (Proc.devRef .tc main_arg0) := by after_results_simp
theorem ops0_keep_a3 : StableHlo.after hostOps0 W (Proc.devRef .tc main_arg3) = W (Proc.devRef .tc main_arg3) := by after_results_simp
theorem ops0_keep_a5 : StableHlo.after hostOps0 W (Proc.devRef .tc main_arg5) = W (Proc.devRef .tc main_arg5) := by after_results_simp
theorem ops0_keep_a6 : StableHlo.after hostOps0 W (Proc.devRef .tc main_arg6) = W (Proc.devRef .tc main_arg6) := by after_results_simp

theorem ops1_v31 : StableHlo.after hostOps1 W (Proc.devRef .tc main_v31) = w1 (W (Proc.devRef .tc main_v4)) := by
  after_results_simp <;> rfl
theorem ops1_v33 : StableHlo.after hostOps1 W (Proc.devRef .tc main_v33) = b1 (W (Proc.devRef .tc main_arg3)) := by
  after_results_simp <;> rfl
theorem ops1_keep_v1 : StableHlo.after hostOps1 W (Proc.devRef .tc main_v1) = W (Proc.devRef .tc main_v1) := by after_results_simp
theorem ops1_keep_v3 : StableHlo.after hostOps1 W (Proc.devRef .tc main_v3) = W (Proc.devRef .tc main_v3) := by after_results_simp
theorem ops1_keep_v4 : StableHlo.after hostOps1 W (Proc.devRef .tc main_v4) = W (Proc.devRef .tc main_v4) := by after_results_simp
theorem ops1_keep_a3 : StableHlo.after hostOps1 W (Proc.devRef .tc main_arg3) = W (Proc.devRef .tc main_arg3) := by after_results_simp
theorem ops1_keep_a5 : StableHlo.after hostOps1 W (Proc.devRef .tc main_arg5) = W (Proc.devRef .tc main_arg5) := by after_results_simp
theorem ops1_keep_a6 : StableHlo.after hostOps1 W (Proc.devRef .tc main_arg6) = W (Proc.devRef .tc main_arg6) := by after_results_simp
theorem ops1_keep_h : StableHlo.after hostOps1 W (Proc.devRef .tc main_v19) = W (Proc.devRef .tc main_v19) := by after_results_simp

theorem ops2_v46 : StableHlo.after hostOps2 W (Proc.devRef .tc main_v46) = w2 (W (Proc.devRef .tc main_v4)) := by
  after_results_simp <;> rfl
theorem ops2_v48 : StableHlo.after hostOps2 W (Proc.devRef .tc main_v48) = b2 (W (Proc.devRef .tc main_arg3)) := by
  after_results_simp <;> rfl
theorem ops2_keep_v1 : StableHlo.after hostOps2 W (Proc.devRef .tc main_v1) = W (Proc.devRef .tc main_v1) := by after_results_simp
theorem ops2_keep_v3 : StableHlo.after hostOps2 W (Proc.devRef .tc main_v3) = W (Proc.devRef .tc main_v3) := by after_results_simp
theorem ops2_keep_v4 : StableHlo.after hostOps2 W (Proc.devRef .tc main_v4) = W (Proc.devRef .tc main_v4) := by after_results_simp
theorem ops2_keep_a3 : StableHlo.after hostOps2 W (Proc.devRef .tc main_arg3) = W (Proc.devRef .tc main_arg3) := by after_results_simp
theorem ops2_keep_a5 : StableHlo.after hostOps2 W (Proc.devRef .tc main_arg5) = W (Proc.devRef .tc main_arg5) := by after_results_simp
theorem ops2_keep_a6 : StableHlo.after hostOps2 W (Proc.devRef .tc main_arg6) = W (Proc.devRef .tc main_arg6) := by after_results_simp
theorem ops2_keep_h : StableHlo.after hostOps2 W (Proc.devRef .tc main_v34) = W (Proc.devRef .tc main_v34) := by after_results_simp

theorem ops3_v61 : StableHlo.after hostOps3 W (Proc.devRef .tc main_v61) = w3 (W (Proc.devRef .tc main_v4)) := by
  after_results_simp <;> rfl
theorem ops3_v63 : StableHlo.after hostOps3 W (Proc.devRef .tc main_v63) = b3 (W (Proc.devRef .tc main_arg3)) := by
  after_results_simp <;> rfl
theorem ops3_keep_v1 : StableHlo.after hostOps3 W (Proc.devRef .tc main_v1) = W (Proc.devRef .tc main_v1) := by after_results_simp
theorem ops3_keep_v3 : StableHlo.after hostOps3 W (Proc.devRef .tc main_v3) = W (Proc.devRef .tc main_v3) := by after_results_simp
theorem ops3_keep_v4 : StableHlo.after hostOps3 W (Proc.devRef .tc main_v4) = W (Proc.devRef .tc main_v4) := by after_results_simp
theorem ops3_keep_a3 : StableHlo.after hostOps3 W (Proc.devRef .tc main_arg3) = W (Proc.devRef .tc main_arg3) := by after_results_simp
theorem ops3_keep_a5 : StableHlo.after hostOps3 W (Proc.devRef .tc main_arg5) = W (Proc.devRef .tc main_arg5) := by after_results_simp
theorem ops3_keep_a6 : StableHlo.after hostOps3 W (Proc.devRef .tc main_arg6) = W (Proc.devRef .tc main_arg6) := by after_results_simp
theorem ops3_keep_h : StableHlo.after hostOps3 W (Proc.devRef .tc main_v49) = W (Proc.devRef .tc main_v49) := by after_results_simp

end Stretch

/-! ### The launches' whole-array functions are the layers -/

section Layers
variable (A H : Vec Ideal S100000x128 .f32) (Wr Wt : Vec Ideal S4x128x128 .f32) (B : Vec Ideal S4x128 .f32) (G Bt : Vec Ideal S128 .f32)

theorem regFirst_eq : regFirst A H (w0 (stackW Wr Wt)) (b0 B) G Bt = layerFirst 0 A H Wr B Wt G Bt := by
  funext i; unfold regFirst layerFirst; rw [wtop_w0, wbot_w0, bvec_b0]; rfl
theorem regMid_eq1 : regMid A H (w1 (stackW Wr Wt)) (b1 B) G Bt = layerMid 1 A H Wr B Wt G Bt := by
  funext i; unfold regMid layerMid; rw [wtop_w1, wbot_w1, bvec_b1]; rfl
theorem regMid_eq2 : regMid A H (w2 (stackW Wr Wt)) (b2 B) G Bt = layerMid 2 A H Wr B Wt G Bt := by
  funext i; unfold regMid layerMid; rw [wtop_w2, wbot_w2, bvec_b2]; rfl
theorem regLast_eq : regLast A H (w3 (stackW Wr Wt)) (b3 B) = layerLast 3 A H Wr B Wt := by
  funext i; unfold regLast layerLast; rw [wtop_w3, wbot_w3, bvec_b3]; rfl

end Layers

/-! ### The contents at each boundary, read back to the launch -/

section Walk
variable (m : (ℓ : Loc nD τ sig) → Buf (Elt Ideal) ℓ) (ρ : Dev nD → PrngReg) (c : Dev nD)

/-- What every boundary's contents still hold of the launch: the edge indices, the stacked weights, and the three
    parameter arrays the later stretches and launches read. -/
structure Carried (W : Valuation τ sig (Elt Ideal)) : Prop where
  v1 : W (Proc.devRef .tc main_v1) = srcOf (m ((c : Thread nD τ).loc main_arg1))
  v3 : W (Proc.devRef .tc main_v3) = dstOf (m ((c : Thread nD τ).loc main_arg1))
  v4 : W (Proc.devRef .tc main_v4) = stackW (m ((c : Thread nD τ).loc main_arg2)) (m ((c : Thread nD τ).loc main_arg4))
  a3 : W (Proc.devRef .tc main_arg3) = m ((c : Thread nD τ).loc main_arg3)
  a5 : W (Proc.devRef .tc main_arg5) = m ((c : Thread nD τ).loc main_arg5)
  a6 : W (Proc.devRef .tc main_arg6) = m ((c : Thread nD τ).loc main_arg6)

/-- The four layers' results. -/
def H1 : Vec Ideal S100000x128 .f32 :=
  layerFirst 0 (aggK (m ((c : Thread nD τ).loc main_arg1)) (m ((c : Thread nD τ).loc main_arg0))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
def H2 : Vec Ideal S100000x128 .f32 :=
  layerMid 1 (aggK (m ((c : Thread nD τ).loc main_arg1)) (H1 m c)) (H1 m c) (m ((c : Thread nD τ).loc main_arg2)) (m ((c : Thread nD τ).loc main_arg3)) (m ((c : Thread nD τ).loc main_arg4)) (m ((c : Thread nD τ).loc main_arg5)) (m ((c : Thread nD τ).loc main_arg6))
def H3 : Vec Ideal S100000x128 .f32 :=
  layerMid 2 (aggK (m ((c : Thread nD τ).loc main_arg1)) (H2 m c)) (H2 m c) (m ((c : Thread nD τ).loc main_arg2)) (m ((c : Thread nD τ).loc main_arg3)) (m ((c : Thread nD τ).loc main_arg4)) (m ((c : Thread nD τ).loc main_arg5)) (m ((c : Thread nD τ).loc main_arg6))
def H4 : Vec Ideal S100000x128 .f32 :=
  layerLast 3 (aggK (m ((c : Thread nD τ).loc main_arg1)) (H3 m c)) (H3 m c) (m ((c : Thread nD τ).loc main_arg2)) (m ((c : Thread nD τ).loc main_arg3)) (m ((c : Thread nD τ).loc main_arg4))

theorem carried1 : Carried m c (W1 m ρ c) :=
  ⟨ops0_v1 (W0 m ρ c), ops0_v3 (W0 m ρ c), ops0_v4 (W0 m ρ c), ops0_keep_a3 (W0 m ρ c), ops0_keep_a5 (W0 m ρ c), ops0_keep_a6 (W0 m ρ c)⟩

theorem carried2 : Carried m c (W2 m ρ c) :=
  have h := carried1 m ρ c
  ⟨(W2_of_ne m ρ c main_v1 (by decide)).trans h.v1, (W2_of_ne m ρ c main_v3 (by decide)).trans h.v3,
   (W2_of_ne m ρ c main_v4 (by decide)).trans h.v4, (W2_of_ne m ρ c main_arg3 (by decide)).trans h.a3,
   ((W2_arr m ρ c 4).trans (((dat0 (V1 m ρ) c).arrAt_in 4 rfl _).trans (A_eq0 (V1 m ρ) c 4))).trans h.a5,
   ((W2_arr m ρ c 5).trans (((dat0 (V1 m ρ) c).arrAt_in 5 rfl _).trans (A_eq0 (V1 m ρ) c 5))).trans h.a6⟩

theorem res1 : W2 m ρ c (Proc.devRef .tc main_v19) = H1 m c := by
  refine (W2_arr m ρ c 6).trans ((region0_value (V1 m ρ) c).trans ?_)
  have e14 : V1 m ρ c main_v14 = aggK (m ((c : Thread nD τ).loc main_arg1)) (m ((c : Thread nD τ).loc main_arg0)) := ops0_v14 (W0 m ρ c)
  have e0 : V1 m ρ c main_arg0 = m ((c : Thread nD τ).loc main_arg0) := ops0_keep_a0 (W0 m ρ c)
  have e16 : V1 m ρ c main_v16 = w0 (stackW (m ((c : Thread nD τ).loc main_arg2)) (m ((c : Thread nD τ).loc main_arg4))) := ops0_v16 (W0 m ρ c)
  have e18 : V1 m ρ c main_v18 = b0 (m ((c : Thread nD τ).loc main_arg3)) := ops0_v18 (W0 m ρ c)
  have e5 : V1 m ρ c main_arg5 = m ((c : Thread nD τ).loc main_arg5) := ops0_keep_a5 (W0 m ρ c)
  have e6 : V1 m ρ c main_arg6 = m ((c : Thread nD τ).loc main_arg6) := ops0_keep_a6 (W0 m ρ c)
  rw [e14, e0, e16, e18, e5, e6, regFirst_eq]
  rfl

theorem carried3 : Carried m c (W3 m ρ c) :=
  have h := carried2 m ρ c
  ⟨(ops1_keep_v1 _).trans h.v1, (ops1_keep_v3 _).trans h.v3, (ops1_keep_v4 _).trans h.v4, (ops1_keep_a3 _).trans h.a3,
   (ops1_keep_a5 _).trans h.a5, (ops1_keep_a6 _).trans h.a6⟩

theorem carried4 : Carried m c (W4 m ρ c) :=
  have h := carried3 m ρ c
  ⟨(W4_of_ne m ρ c main_v1 (by decide)).trans h.v1, (W4_of_ne m ρ c main_v3 (by decide)).trans h.v3,
   (W4_of_ne m ρ c main_v4 (by decide)).trans h.v4, (W4_of_ne m ρ c main_arg3 (by decide)).trans h.a3,
   ((W4_arr m ρ c 4).trans (((dat1 (V3 m ρ) c).arrAt_in 4 rfl _).trans (A_eq1 (V3 m ρ) c 4))).trans h.a5,
   ((W4_arr m ρ c 5).trans (((dat1 (V3 m ρ) c).arrAt_in 5 rfl _).trans (A_eq1 (V3 m ρ) c 5))).trans h.a6⟩

theorem res2 : W4 m ρ c (Proc.devRef .tc main_v34) = H2 m c := by
  have hc := carried2 m ρ c
  have hr := res1 m ρ c
  refine (W4_arr m ρ c 6).trans ((region1_value (V3 m ρ) c).trans ?_)
  have e29 : V3 m ρ c main_v29 = aggK (m ((c : Thread nD τ).loc main_arg1)) (H1 m c) := (ops1_v29 (W2 m ρ c)).trans (by rw [hc.v1, hc.v3, hr]; rfl)
  have e19 : V3 m ρ c main_v19 = H1 m c := (ops1_keep_h (W2 m ρ c)).trans hr
  have e31 : V3 m ρ c main_v31 = w1 (stackW (m ((c : Thread nD τ).loc main_arg2)) (m ((c : Thread nD τ).loc main_arg4))) := (ops1_v31 (W2 m ρ c)).trans (by rw [hc.v4])
  have e33 : V3 m ρ c main_v33 = b1 (m ((c : Thread nD τ).loc main_arg3)) := (ops1_v33 (W2 m ρ c)).trans (by rw [hc.a3])
  have e5 : V3 m ρ c main_arg5 = m ((c : Thread nD τ).loc main_arg5) := (ops1_keep_a5 (W2 m ρ c)).trans hc.a5
  have e6 : V3 m ρ c main_arg6 = m ((c : Thread nD τ).loc main_arg6) := (ops1_keep_a6 (W2 m ρ c)).trans hc.a6
  rw [e29, e19, e31, e33, e5, e6, regMid_eq1]
  rfl

theorem carried5 : Carried m c (W5 m ρ c) :=
  have h := carried4 m ρ c
  ⟨(ops2_keep_v1 _).trans h.v1, (ops2_keep_v3 _).trans h.v3, (ops2_keep_v4 _).trans h.v4, (ops2_keep_a3 _).trans h.a3,
   (ops2_keep_a5 _).trans h.a5, (ops2_keep_a6 _).trans h.a6⟩

theorem carried6 : Carried m c (W6 m ρ c) :=
  have h := carried5 m ρ c
  ⟨(W6_of_ne m ρ c main_v1 (by decide)).trans h.v1, (W6_of_ne m ρ c main_v3 (by decide)).trans h.v3,
   (W6_of_ne m ρ c main_v4 (by decide)).trans h.v4, (W6_of_ne m ρ c main_arg3 (by decide)).trans h.a3,
   ((W6_arr m ρ c 4).trans (((dat2 (V5 m ρ) c).arrAt_in 4 rfl _).trans (A_eq2 (V5 m ρ) c 4))).trans h.a5,
   ((W6_arr m ρ c 5).trans (((dat2 (V5 m ρ) c).arrAt_in 5 rfl _).trans (A_eq2 (V5 m ρ) c 5))).trans h.a6⟩

theorem res3 : W6 m ρ c (Proc.devRef .tc main_v49) = H3 m c := by
  have hc := carried4 m ρ c
  have hr := res2 m ρ c
  refine (W6_arr m ρ c 6).trans ((region2_value (V5 m ρ) c).trans ?_)
  have e44 : V5 m ρ c main_v44 = aggK (m ((c : Thread nD τ).loc main_arg1)) (H2 m c) := (ops2_v44 (W4 m ρ c)).trans (by rw [hc.v1, hc.v3, hr]; rfl)
  have e34 : V5 m ρ c main_v34 = H2 m c := (ops2_keep_h (W4 m ρ c)).trans hr
  have e46 : V5 m ρ c main_v46 = w2 (stackW (m ((c : Thread nD τ).loc main_arg2)) (m ((c : Thread nD τ).loc main_arg4))) := (ops2_v46 (W4 m ρ c)).trans (by rw [hc.v4])
  have e48 : V5 m ρ c main_v48 = b2 (m ((c : Thread nD τ).loc main_arg3)) := (ops2_v48 (W4 m ρ c)).trans (by rw [hc.a3])
  have e5 : V5 m ρ c main_arg5 = m ((c : Thread nD τ).loc main_arg5) := (ops2_keep_a5 (W4 m ρ c)).trans hc.a5
  have e6 : V5 m ρ c main_arg6 = m ((c : Thread nD τ).loc main_arg6) := (ops2_keep_a6 (W4 m ρ c)).trans hc.a6
  rw [e44, e34, e46, e48, e5, e6, regMid_eq2]
  rfl

/-- THE KERNEL'S RESULT: the last boundary's contents at the result array are the four layers of the arguments. -/
theorem res4 : W8 m ρ c (Proc.devRef .tc main_v64) = H4 m c := by
  have hc := carried6 m ρ c
  have hr := res3 m ρ c
  refine (W8_arr m ρ c 6).trans ((region3_value (V7 m ρ) c).trans ?_)
  have e59 : V7 m ρ c main_v59 = aggK (m ((c : Thread nD τ).loc main_arg1)) (H3 m c) := (ops3_v59 (W6 m ρ c)).trans (by rw [hc.v1, hc.v3, hr]; rfl)
  have e49 : V7 m ρ c main_v49 = H3 m c := (ops3_keep_h (W6 m ρ c)).trans hr
  have e61 : V7 m ρ c main_v61 = w3 (stackW (m ((c : Thread nD τ).loc main_arg2)) (m ((c : Thread nD τ).loc main_arg4))) := (ops3_v61 (W6 m ρ c)).trans (by rw [hc.v4])
  have e63 : V7 m ρ c main_v63 = b3 (m ((c : Thread nD τ).loc main_arg3)) := (ops3_v63 (W6 m ρ c)).trans (by rw [hc.a3])
  rw [e59, e49, e61, e63, regLast_eq]
  rfl

theorem kernel_value : W8 m ρ c (Proc.devRef .tc main_v64)
    = net (aggK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [res4]; rfl

end Walk

end Cert.KernelIdeal.Bound

end
-- ==== Proof.RefStages.lean ====
/-
  The reference's run, read layer by layer. @main is a straight line of 202 host operations; after a run every buffer
  holds the fold of the operations over the launch contents. The fold is cut where each layer's result is written
  (after operations 61, 119 and 177): within one layer the result is a small term of the layer's input, the edge
  indices and the parameters, and it is the staged value val_main_vN of the arguments once the layer before is. A
  buffer that a stretch does not write keeps its contents, which carries the edge indices and the parameters along.
-/
import proofs.«410806_j56659208569289_3_alg».proof.Proof.RefRun
import proofs.«410806_j56659208569289_3_alg».proof.Proof.RefRead
import Idealize.ShloMosaic.Lib.Pipeline.Frame

set_option maxRecDepth 8192

noncomputable section

namespace Cert.ReferenceIdeal.Stages

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP

section Fold
variable {F : FTy → Type} [FloatOps F]

/-- The fold over the whole list is the fold over the four stretches in turn. -/
theorem after_cut (W : Valuation τ sig (Elt F)) :
    StableHlo.after (ops (F := F)) W
      = StableHlo.after (List.drop 177 (ops (F := F))) (StableHlo.after (List.take 58 (List.drop 119 (ops (F := F)))) (StableHlo.after (List.take 58 (List.drop 61 (ops (F := F)))) (StableHlo.after (List.take 61 (ops (F := F))) W))) := by
  rw [← StableHlo.after_append, ← StableHlo.after_append, ← StableHlo.after_append]
  congr 1

variable (W : Valuation τ sig (Elt F)) (a0 : (⟨S100000x128, .f32⟩ : BufTy).Contents (Elt F)) (a1 : (⟨S2x1600000, .i32⟩ : BufTy).Contents (Elt F)) (a2 : (⟨S4x128x128, .f32⟩ : BufTy).Contents (Elt F)) (a3 : (⟨S4x128, .f32⟩ : BufTy).Contents (Elt F)) (a4 : (⟨S4x128x128, .f32⟩ : BufTy).Contents (Elt F)) (a5 a6 : (⟨S128, .f32⟩ : BufTy).Contents (Elt F))

/-! #### The first stretch (operations 1 to 61): layer 0 -/

set_option maxHeartbeats 4000000 in
theorem c1_v50 (e0 : W (Proc.devRef .tc main_arg0) = a0) (e1 : W (Proc.devRef .tc main_arg1) = a1)
    (e2 : W (Proc.devRef .tc main_arg2) = a2) (e3 : W (Proc.devRef .tc main_arg3) = a3) (e4 : W (Proc.devRef .tc main_arg4) = a4) (e5 : W (Proc.devRef .tc main_arg5) = a5) (e6 : W (Proc.devRef .tc main_arg6) = a6) :
    StableHlo.after (List.take 61 (ops (F := F))) W (Proc.devRef .tc main_v50) = val_main_v50 (F := F) a0 a1 a2 a3 a4 a5 a6 := by
  simp only [ops, List.take_succ_cons, List.take_zero, List.drop_succ_cons, List.drop_zero]
  after_results_simp
  rw [e0, e1, e2, e3, e4, e5, e6]
  rfl
set_option maxHeartbeats 4000000 in
theorem c1_v1 (e1 : W (Proc.devRef .tc main_arg1) = a1) : StableHlo.after (List.take 61 (ops (F := F))) W (Proc.devRef .tc main_v1) = val_main_v1 (F := F) a1 := by
  simp only [ops, List.take_succ_cons, List.take_zero, List.drop_succ_cons, List.drop_zero]
  after_results_simp
  rw [e1]
  rfl
set_option maxHeartbeats 4000000 in
theorem c1_v3 (e1 : W (Proc.devRef .tc main_arg1) = a1) : StableHlo.after (List.take 61 (ops (F := F))) W (Proc.devRef .tc main_v3) = val_main_v3 (F := F) a1 := by
  simp only [ops, List.take_succ_cons, List.take_zero, List.drop_succ_cons, List.drop_zero]
  after_results_simp
  rw [e1]
  rfl
set_option maxHeartbeats 4000000 in
theorem c1_keep_a2 : StableHlo.after (List.take 61 (ops (F := F))) W (Proc.devRef .tc main_arg2) = W (Proc.devRef .tc main_arg2) := by
  simp only [ops, List.take_succ_cons, List.take_zero, List.drop_succ_cons, List.drop_zero]
  after_results_simp
set_option maxHeartbeats 4000000 in
theorem c1_keep_a3 : StableHlo.after (List.take 61 (ops (F := F))) W (Proc.devRef .tc main_arg3) = W (Proc.devRef .tc main_arg3) := by
  simp only [ops, List.take_succ_cons, List.take_zero, List.drop_succ_cons, List.drop_zero]
  after_results_simp
set_option maxHeartbeats 4000000 in
theorem c1_keep_a4 : StableHlo.after (List.take 61 (ops (F := F))) W (Proc.devRef .tc main_arg4) = W (Proc.devRef .tc main_arg4) := by
  simp only [ops, List.take_succ_cons, List.take_zero, List.drop_succ_cons, List.drop_zero]
  after_results_simp
set_option maxHeartbeats 4000000 in
theorem c1_keep_a5 : StableHlo.after (List.take 61 (ops (F := F))) W (Proc.devRef .tc main_arg5) = W (Proc.devRef .tc main_arg5) := by
  simp only [ops, List.take_succ_cons, List.take_zero, List.drop_succ_cons, List.drop_zero]
  after_results_simp
set_option maxHeartbeats 4000000 in
theorem c1_keep_a6 : StableHlo.after (List.take 61 (ops (F := F))) W (Proc.devRef .tc main_arg6) = W (Proc.devRef .tc main_arg6) := by
  simp only [ops, List.take_succ_cons, List.take_zero, List.drop_succ_cons, List.drop_zero]
  after_results_simp

/-! #### The second stretch (operations 62 to 119): layer 1 -/

set_option maxHeartbeats 4000000 in
theorem c2_v98 (hh : W (Proc.devRef .tc main_v50) = val_main_v50 (F := F) a0 a1 a2 a3 a4 a5 a6) (h1 : W (Proc.devRef .tc main_v1) = val_main_v1 (F := F) a1) (h3 : W (Proc.devRef .tc main_v3) = val_main_v3 (F := F) a1)
    (e2 : W (Proc.devRef .tc main_arg2) = a2) (e3 : W (Proc.devRef .tc main_arg3) = a3) (e4 : W (Proc.devRef .tc main_arg4) = a4) (e5 : W (Proc.devRef .tc main_arg5) = a5) (e6 : W (Proc.devRef .tc main_arg6) = a6) :
    StableHlo.after (List.take 58 (List.drop 61 (ops (F := F)))) W (Proc.devRef .tc main_v98) = val_main_v98 (F := F) a0 a1 a2 a3 a4 a5 a6 := by
  simp only [ops, List.take_succ_cons, List.take_zero, List.drop_succ_cons, List.drop_zero]
  after_results_simp
  rw [hh, h1, h3, e2, e3, e4, e5, e6]
  rfl
set_option maxHeartbeats 4000000 in
theorem c2_keep_v1 : StableHlo.after (List.take 58 (List.drop 61 (ops (F := F)))) W (Proc.devRef .tc main_v1) = W (Proc.devRef .tc main_v1) := by
  simp only [ops, List.take_succ_cons, List.take_zero, List.drop_succ_cons, List.drop_zero]
  after_results_simp
set_option maxHeartbeats 4000000 in
theorem c2_keep_v3 : StableHlo.after (List.take 58 (List.drop 61 (ops (F := F)))) W (Proc.devRef .tc main_v3) = W (Proc.devRef .tc main_v3) := by
  simp only [ops, List.take_succ_cons, List.take_zero, List.drop_succ_cons, List.drop_zero]
  after_results_simp
set_option maxHeartbeats 4000000 in
theorem c2_keep_a2 : StableHlo.after (List.take 58 (List.drop 61 (ops (F := F)))) W (Proc.devRef .tc main_arg2) = W (Proc.devRef .tc main_arg2) := by
  simp only [ops, List.take_succ_cons, List.take_zero, List.drop_succ_cons, List.drop_zero]
  after_results_simp
set_option maxHeartbeats 4000000 in
theorem c2_keep_a3 : StableHlo.after (List.take 58 (List.drop 61 (ops (F := F)))) W (Proc.devRef .tc main_arg3) = W (Proc.devRef .tc main_arg3) := by
  simp only [ops, List.take_succ_cons, List.take_zero, List.drop_succ_cons, List.drop_zero]
  after_results_simp
set_option maxHeartbeats 4000000 in
theorem c2_keep_a4 : StableHlo.after (List.take 58 (List.drop 61 (ops (F := F)))) W (Proc.devRef .tc main_arg4) = W (Proc.devRef .tc main_arg4) := by
  simp only [ops, List.take_succ_cons, List.take_zero, List.drop_succ_cons, List.drop_zero]
  after_results_simp
set_option maxHeartbeats 4000000 in
theorem c2_keep_a5 : StableHlo.after (List.take 58 (List.drop 61 (ops (F := F)))) W (Proc.devRef .tc main_arg5) = W (Proc.devRef .tc main_arg5) := by
  simp only [ops, List.take_succ_cons, List.take_zero, List.drop_succ_cons, List.drop_zero]
  after_results_simp
set_option maxHeartbeats 4000000 in
theorem c2_keep_a6 : StableHlo.after (List.take 58 (List.drop 61 (ops (F := F)))) W (Proc.devRef .tc main_arg6) = W (Proc.devRef .tc main_arg6) := by
  simp only [ops, List.take_succ_cons, List.take_zero, List.drop_succ_cons, List.drop_zero]
  after_results_simp

/-! #### The third stretch (operations 120 to 177): layer 2 -/

set_option maxHeartbeats 4000000 in
theorem c3_v146 (hh : W (Proc.devRef .tc main_v98) = val_main_v98 (F := F) a0 a1 a2 a3 a4 a5 a6) (h1 : W (Proc.devRef .tc main_v1) = val_main_v1 (F := F) a1) (h3 : W (Proc.devRef .tc main_v3) = val_main_v3 (F := F) a1)
    (e2 : W (Proc.devRef .tc main_arg2) = a2) (e3 : W (Proc.devRef .tc main_arg3) = a3) (e4 : W (Proc.devRef .tc main_arg4) = a4) (e5 : W (Proc.devRef .tc main_arg5) = a5) (e6 : W (Proc.devRef .tc main_arg6) = a6) :
    StableHlo.after (List.take 58 (List.drop 119 (ops (F := F)))) W (Proc.devRef .tc main_v146) = val_main_v146 (F := F) a0 a1 a2 a3 a4 a5 a6 := by
  simp only [ops, List.take_succ_cons, List.take_zero, List.drop_succ_cons, List.drop_zero]
  after_results_simp
  rw [hh, h1, h3, e2, e3, e4, e5, e6]
  rfl
set_option maxHeartbeats 4000000 in
theorem c3_keep_v1 : StableHlo.after (List.take 58 (List.drop 119 (ops (F := F)))) W (Proc.devRef .tc main_v1) = W (Proc.devRef .tc main_v1) := by
  simp only [ops, List.take_succ_cons, List.take_zero, List.drop_succ_cons, List.drop_zero]
  after_results_simp
set_option maxHeartbeats 4000000 in
theorem c3_keep_v3 : StableHlo.after (List.take 58 (List.drop 119 (ops (F := F)))) W (Proc.devRef .tc main_v3) = W (Proc.devRef .tc main_v3) := by
  simp only [ops, List.take_succ_cons, List.take_zero, List.drop_succ_cons, List.drop_zero]
  after_results_simp
set_option maxHeartbeats 4000000 in
theorem c3_keep_a2 : StableHlo.after (List.take 58 (List.drop 119 (ops (F := F)))) W (Proc.devRef .tc main_arg2) = W (Proc.devRef .tc main_arg2) := by
  simp only [ops, List.take_succ_cons, List.take_zero, List.drop_succ_cons, List.drop_zero]
  after_results_simp
set_option maxHeartbeats 4000000 in
theorem c3_keep_a3 : StableHlo.after (List.take 58 (List.drop 119 (ops (F := F)))) W (Proc.devRef .tc main_arg3) = W (Proc.devRef .tc main_arg3) := by
  simp only [ops, List.take_succ_cons, List.take_zero, List.drop_succ_cons, List.drop_zero]
  after_results_simp
set_option maxHeartbeats 4000000 in
theorem c3_keep_a4 : StableHlo.after (List.take 58 (List.drop 119 (ops (F := F)))) W (Proc.devRef .tc main_arg4) = W (Proc.devRef .tc main_arg4) := by
  simp only [ops, List.take_succ_cons, List.take_zero, List.drop_succ_cons, List.drop_zero]
  after_results_simp
set_option maxHeartbeats 4000000 in
theorem c3_keep_a5 : StableHlo.after (List.take 58 (List.drop 119 (ops (F := F)))) W (Proc.devRef .tc main_arg5) = W (Proc.devRef .tc main_arg5) := by
  simp only [ops, List.take_succ_cons, List.take_zero, List.drop_succ_cons, List.drop_zero]
  after_results_simp
set_option maxHeartbeats 4000000 in
theorem c3_keep_a6 : StableHlo.after (List.take 58 (List.drop 119 (ops (F := F)))) W (Proc.devRef .tc main_arg6) = W (Proc.devRef .tc main_arg6) := by
  simp only [ops, List.take_succ_cons, List.take_zero, List.drop_succ_cons, List.drop_zero]
  after_results_simp

/-! #### The last stretch (operations 178 to 202): layer 3 -/

set_option maxHeartbeats 4000000 in
theorem c4_v168 (hh : W (Proc.devRef .tc main_v146) = val_main_v146 (F := F) a0 a1 a2 a3 a4 a5 a6) (h1 : W (Proc.devRef .tc main_v1) = val_main_v1 (F := F) a1) (h3 : W (Proc.devRef .tc main_v3) = val_main_v3 (F := F) a1)
    (e2 : W (Proc.devRef .tc main_arg2) = a2) (e3 : W (Proc.devRef .tc main_arg3) = a3) (e4 : W (Proc.devRef .tc main_arg4) = a4) (e5 : W (Proc.devRef .tc main_arg5) = a5) (e6 : W (Proc.devRef .tc main_arg6) = a6) :
    StableHlo.after (List.drop 177 (ops (F := F))) W (Proc.devRef .tc main_v168) = val_main_v168 (F := F) a0 a1 a2 a3 a4 a5 a6 := by
  simp only [ops, List.take_succ_cons, List.take_zero, List.drop_succ_cons, List.drop_zero]
  after_results_simp
  rw [hh, h1, h3, e2, e3, e4]
  rfl

/-- The result buffer after the whole fold is the last stage of the arguments. -/
theorem after_v168 (e0 : W (Proc.devRef .tc main_arg0) = a0) (e1 : W (Proc.devRef .tc main_arg1) = a1)
    (e2 : W (Proc.devRef .tc main_arg2) = a2) (e3 : W (Proc.devRef .tc main_arg3) = a3) (e4 : W (Proc.devRef .tc main_arg4) = a4) (e5 : W (Proc.devRef .tc main_arg5) = a5) (e6 : W (Proc.devRef .tc main_arg6) = a6) :
    StableHlo.after (ops (F := F)) W (Proc.devRef .tc main_v168) = val_main_v168 (F := F) a0 a1 a2 a3 a4 a5 a6 := by
  rw [after_cut]
  exact c4_v168 _ a0 a1 a2 a3 a4 a5 a6
    (c3_v146 _ a0 a1 a2 a3 a4 a5 a6
      (c2_v98 _ a0 a1 a2 a3 a4 a5 a6 (c1_v50 W a0 a1 a2 a3 a4 a5 a6 e0 e1 e2 e3 e4 e5 e6)
        (c1_v1 W a1 e1) (c1_v3 W a1 e1) ((c1_keep_a2 W).trans e2) ((c1_keep_a3 W).trans e3) ((c1_keep_a4 W).trans e4) ((c1_keep_a5 W).trans e5) ((c1_keep_a6 W).trans e6))
      ((c2_keep_v1 _).trans (c1_v1 W a1 e1)) ((c2_keep_v3 _).trans (c1_v3 W a1 e1))
      ((c2_keep_a2 _).trans ((c1_keep_a2 W).trans e2)) ((c2_keep_a3 _).trans ((c1_keep_a3 W).trans e3)) ((c2_keep_a4 _).trans ((c1_keep_a4 W).trans e4))
      ((c2_keep_a5 _).trans ((c1_keep_a5 W).trans e5)) ((c2_keep_a6 _).trans ((c1_keep_a6 W).trans e6)))
    ((c3_keep_v1 _).trans ((c2_keep_v1 _).trans (c1_v1 W a1 e1))) ((c3_keep_v3 _).trans ((c2_keep_v3 _).trans (c1_v3 W a1 e1)))
    ((c3_keep_a2 _).trans ((c2_keep_a2 _).trans ((c1_keep_a2 W).trans e2))) ((c3_keep_a3 _).trans ((c2_keep_a3 _).trans ((c1_keep_a3 W).trans e3)))
    ((c3_keep_a4 _).trans ((c2_keep_a4 _).trans ((c1_keep_a4 W).trans e4))) ((c3_keep_a5 _).trans ((c2_keep_a5 _).trans ((c1_keep_a5 W).trans e5)))
    ((c3_keep_a6 _).trans ((c2_keep_a6 _).trans ((c1_keep_a6 W).trans e6)))

end Fold

end Cert.ReferenceIdeal.Stages

end
-- ==== Proof.RefConv.lean ====
/-
  The reference's convolution at one entry. Each layer computes (A · Wrel_l + b_l) + H · Wroot_l over whole arrays, with
  A the aggregate of H over the edges; layers 1 and 2 then add H. Read at entry (r, q) the two products are the
  128-term sums of Spec.lean's convRow over row r of A and of H; the weights are slice l of each table, the bias row l
  of the bias table, the broadcasts put b_l q on every row.
-/
import proofs.«410806_j56659208569289_3_alg».proof.Proof.RefRead
import proofs.«410806_j56659208569289_3_alg».proof.Proof.Spec
import Idealize.ShloMosaic.Lib.Pipeline.Value
import Idealize.ShloMosaic.Lib.ValueLayout
import Idealize.ShloMosaic.PureOps.Ideal.Laws

noncomputable section

namespace Cert.ReferenceIdeal.Layers

open Idealize.ShloMosaic Idealize.ShloMosaic.ValueIdx Cert.ReferenceIdeal Cert.ReferenceIdeal.Gen Cert.ReferenceIdeal.ReadP Cert.GraphConv

variable (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 : (⟨S128, .f32⟩ : BufTy).Contents (Elt Ideal))

/-! ## Index equations

  Each composed index map of the reference, taken at entry (r, q) (and contraction index k), is the index built from
  the expected coordinates: row r and column k of a node array; slice l, row k, column q of a weight table (the
  reshape's flat position k · 128 + q has quotient k and remainder q); row l, column q of the bias table. -/

/-- The flat position k · 128 + q of a 128 × 128 array lies in row k. -/
theorem flat_row (k q : Fin 128) : (k.val * 128 + q.val) / 128 % 128 = k.val := by
  have hk := k.isLt
  have hq := q.isLt
  omega

/-- The flat position k · 128 + q of a 128 × 128 array lies in column q. -/
theorem flat_col (k q : Fin 128) : (k.val * 128 + q.val) % 128 = q.val := by
  have hq := q.isLt
  omega

/-- A column below 128 is its own remainder. -/
theorem col_mod (q : Fin 128) : q.val % 128 = q.val := Nat.mod_eq_of_lt q.isLt

/-! ### Layer 0 -/

/-- Layer 0: the aggregate is read at (r, k). -/
theorem lidxA0_eq (r : Fin 100000) (q k : Fin 128) : lidx_main_v20 (ix2 r q) k = ix2 r k :=
  funext fun a => Fin.ext (by match a with | ⟨0, _⟩ => rfl | ⟨1, _⟩ => rfl)

/-- Layer 0: the features are read at (r, k). -/
theorem lidxH0_eq (r : Fin 100000) (q k : Fin 128) : lidx_main_v24 (ix2 r q) k = ix2 r k :=
  funext fun a => Fin.ext (by match a with | ⟨0, _⟩ => rfl | ⟨1, _⟩ => rfl)

/-- Layer 0: slice 0 of the first weight table, reshaped to 128 × 128, is read at (0, k, q). -/
theorem widxA0_eq (r : Fin 100000) (q k : Fin 128) :
    idx_main_v4 (idx_main_v5 (ridx_main_v20 (ix2 r q) k)) = ix3 (0 : Fin 4) k q :=
  funext fun a => Fin.ext (by
    match a with
    | ⟨0, _⟩ => rfl
    | ⟨1, _⟩ => exact flat_row k q
    | ⟨2, _⟩ => exact flat_col k q)

/-- Layer 0: slice 0 of the second weight table, reshaped to 128 × 128, is read at (0, k, q). -/
theorem widxH0_eq (r : Fin 100000) (q k : Fin 128) :
    idx_main_v8 (idx_main_v9 (ridx_main_v24 (ix2 r q) k)) = ix3 (0 : Fin 4) k q :=
  funext fun a => Fin.ext (by
    match a with
    | ⟨0, _⟩ => rfl
    | ⟨1, _⟩ => exact flat_row k q
    | ⟨2, _⟩ => exact flat_col k q)

/-- Layer 0: row 0 of the bias table, reshaped to a vector and broadcast over the rows, is read at (0, q). -/
theorem bidx0_eq (r : Fin 100000) (q : Fin 128) :
    idx_main_v6 (idx_main_v7 (idx_main_v21 (idx_main_v22 (ix2 r q)))) = ix2 (0 : Fin 4) q :=
  funext fun a => Fin.ext (by
    match a with
    | ⟨0, _⟩ => rfl
    | ⟨1, _⟩ => exact col_mod q)

/-- Layer 0 before the clamp. -/
theorem conv0_apply (r : Fin 100000) (q : Fin 128) :
    val_main_v25 (F := Ideal) x0 x1 x2 x3 x4 (ix2 r q)
      = convRow (rowOf (val_main_v19 (F := Ideal) x0 x1) r) (rowOf x0 r) (matOf x2 0) (matOf x4 0) (biasOf x3 0) q := by
  rw [val_main_v25_apply, val_main_v23_apply, val_main_v20_apply, val_main_v22_apply, val_main_v21_apply,
    val_main_v7_apply, val_main_v6_apply, val_main_v24_apply]
  generalize val_main_v19 (F := Ideal) x0 x1 = A
  simp only [val_main_v5_apply, val_main_v4_apply, val_main_v9_apply, val_main_v8_apply, Ideal.addf_def,
    lidxA0_eq, widxA0_eq, bidx0_eq, lidxH0_eq, widxH0_eq]
  rfl

/-! ### Layer 1 -/

/-- Layer 1: the aggregate is read at (r, k). -/
theorem lidxA1_eq (r : Fin 100000) (q k : Fin 128) : lidx_main_v67 (ix2 r q) k = ix2 r k :=
  funext fun a => Fin.ext (by match a with | ⟨0, _⟩ => rfl | ⟨1, _⟩ => rfl)

/-- Layer 1: the features are read at (r, k). -/
theorem lidxH1_eq (r : Fin 100000) (q k : Fin 128) : lidx_main_v71 (ix2 r q) k = ix2 r k :=
  funext fun a => Fin.ext (by match a with | ⟨0, _⟩ => rfl | ⟨1, _⟩ => rfl)

/-- Layer 1: slice 1 of the first weight table, reshaped to 128 × 128, is read at (1, k, q). -/
theorem widxA1_eq (r : Fin 100000) (q k : Fin 128) :
    idx_main_v51 (idx_main_v52 (ridx_main_v67 (ix2 r q) k)) = ix3 (1 : Fin 4) k q :=
  funext fun a => Fin.ext (by
    match a with
    | ⟨0, _⟩ => rfl
    | ⟨1, _⟩ => exact flat_row k q
    | ⟨2, _⟩ => exact flat_col k q)

/-- Layer 1: slice 1 of the second weight table, reshaped to 128 × 128, is read at (1, k, q). -/
theorem widxH1_eq (r : Fin 100000) (q k : Fin 128) :
    idx_main_v55 (idx_main_v56 (ridx_main_v71 (ix2 r q) k)) = ix3 (1 : Fin 4) k q :=
  funext fun a => Fin.ext (by
    match a with
    | ⟨0, _⟩ => rfl
    | ⟨1, _⟩ => exact flat_row k q
    | ⟨2, _⟩ => exact flat_col k q)

/-- Layer 1: row 1 of the bias table, reshaped to a vector and broadcast over the rows, is read at (1, q). -/
theorem bidx1_eq (r : Fin 100000) (q : Fin 128) :
    idx_main_v53 (idx_main_v54 (idx_main_v68 (idx_main_v69 (ix2 r q)))) = ix2 (1 : Fin 4) q :=
  funext fun a => Fin.ext (by
    match a with
    | ⟨0, _⟩ => rfl
    | ⟨1, _⟩ => exact col_mod q)

/-- Layer 1 before the clamp: the convolution of the first layer's result, plus that result. -/
theorem conv1_apply (r : Fin 100000) (q : Fin 128) :
    val_main_v73 (F := Ideal) x0 x1 x2 x3 x4 x5 x6 (ix2 r q)
      = convRow (rowOf (val_main_v66 (F := Ideal) x0 x1 x2 x3 x4 x5 x6) r) (rowOf (val_main_v50 (F := Ideal) x0 x1 x2 x3 x4 x5 x6) r) (matOf x2 1) (matOf x4 1) (biasOf x3 1) q
        + val_main_v50 (F := Ideal) x0 x1 x2 x3 x4 x5 x6 (ix2 r q) := by
  rw [val_main_v73_apply, val_main_v72_apply, val_main_v70_apply, val_main_v67_apply, val_main_v69_apply,
    val_main_v68_apply, val_main_v54_apply, val_main_v53_apply, val_main_v71_apply]
  generalize val_main_v66 (F := Ideal) x0 x1 x2 x3 x4 x5 x6 = A
  generalize val_main_v50 (F := Ideal) x0 x1 x2 x3 x4 x5 x6 = H
  simp only [val_main_v52_apply, val_main_v51_apply, val_main_v56_apply, val_main_v55_apply, Ideal.addf_def,
    lidxA1_eq, widxA1_eq, bidx1_eq, lidxH1_eq, widxH1_eq]
  rfl

/-! ### Layer 2 -/

/-- Layer 2: the aggregate is read at (r, k). -/
theorem lidxA2_eq (r : Fin 100000) (q k : Fin 128) : lidx_main_v115 (ix2 r q) k = ix2 r k :=
  funext fun a => Fin.ext (by match a with | ⟨0, _⟩ => rfl | ⟨1, _⟩ => rfl)

/-- Layer 2: the features are read at (r, k). -/
theorem lidxH2_eq (r : Fin 100000) (q k : Fin 128) : lidx_main_v119 (ix2 r q) k = ix2 r k :=
  funext fun a => Fin.ext (by match a with | ⟨0, _⟩ => rfl | ⟨1, _⟩ => rfl)

/-- Layer 2: slice 2 of the first weight table, reshaped to 128 × 128, is read at (2, k, q). -/
theorem widxA2_eq (r : Fin 100000) (q k : Fin 128) :
    idx_main_v99 (idx_main_v100 (ridx_main_v115 (ix2 r q) k)) = ix3 (2 : Fin 4) k q :=
  funext fun a => Fin.ext (by
    match a with
    | ⟨0, _⟩ => rfl
    | ⟨1, _⟩ => exact flat_row k q
    | ⟨2, _⟩ => exact flat_col k q)

/-- Layer 2: slice 2 of the second weight table, reshaped to 128 × 128, is read at (2, k, q). -/
theorem widxH2_eq (r : Fin 100000) (q k : Fin 128) :
    idx_main_v103 (idx_main_v104 (ridx_main_v119 (ix2 r q) k)) = ix3 (2 : Fin 4) k q :=
  funext fun a => Fin.ext (by
    match a with
    | ⟨0, _⟩ => rfl
    | ⟨1, _⟩ => exact flat_row k q
    | ⟨2, _⟩ => exact flat_col k q)

/-- Layer 2: row 2 of the bias table, reshaped to a vector and broadcast over the rows, is read at (2, q). -/
theorem bidx2_eq (r : Fin 100000) (q : Fin 128) :
    idx_main_v101 (idx_main_v102 (idx_main_v116 (idx_main_v117 (ix2 r q)))) = ix2 (2 : Fin 4) q :=
  funext fun a => Fin.ext (by
    match a with
    | ⟨0, _⟩ => rfl
    | ⟨1, _⟩ => exact col_mod q)

/-- Layer 2 before the clamp. -/
theorem conv2_apply (r : Fin 100000) (q : Fin 128) :
    val_main_v121 (F := Ideal) x0 x1 x2 x3 x4 x5 x6 (ix2 r q)
      = convRow (rowOf (val_main_v114 (F := Ideal) x0 x1 x2 x3 x4 x5 x6) r) (rowOf (val_main_v98 (F := Ideal) x0 x1 x2 x3 x4 x5 x6) r) (matOf x2 2) (matOf x4 2) (biasOf x3 2) q
        + val_main_v98 (F := Ideal) x0 x1 x2 x3 x4 x5 x6 (ix2 r q) := by
  rw [val_main_v121_apply, val_main_v120_apply, val_main_v118_apply, val_main_v115_apply, val_main_v117_apply,
    val_main_v116_apply, val_main_v102_apply, val_main_v101_apply, val_main_v119_apply]
  generalize val_main_v114 (F := Ideal) x0 x1 x2 x3 x4 x5 x6 = A
  generalize val_main_v98 (F := Ideal) x0 x1 x2 x3 x4 x5 x6 = H
  simp only [val_main_v100_apply, val_main_v99_apply, val_main_v104_apply, val_main_v103_apply, Ideal.addf_def,
    lidxA2_eq, widxA2_eq, bidx2_eq, lidxH2_eq, widxH2_eq]
  rfl

/-! ### Layer 3 -/

/-- Layer 3: the aggregate is read at (r, k). -/
theorem lidxA3_eq (r : Fin 100000) (q k : Fin 128) : lidx_main_v163 (ix2 r q) k = ix2 r k :=
  funext fun a => Fin.ext (by match a with | ⟨0, _⟩ => rfl | ⟨1, _⟩ => rfl)

/-- Layer 3: the features are read at (r, k). -/
theorem lidxH3_eq (r : Fin 100000) (q k : Fin 128) : lidx_main_v167 (ix2 r q) k = ix2 r k :=
  funext fun a => Fin.ext (by match a with | ⟨0, _⟩ => rfl | ⟨1, _⟩ => rfl)

/-- Layer 3: slice 3 of the first weight table, reshaped to 128 × 128, is read at (3, k, q). -/
theorem widxA3_eq (r : Fin 100000) (q k : Fin 128) :
    idx_main_v147 (idx_main_v148 (ridx_main_v163 (ix2 r q) k)) = ix3 (3 : Fin 4) k q :=
  funext fun a => Fin.ext (by
    match a with
    | ⟨0, _⟩ => rfl
    | ⟨1, _⟩ => exact flat_row k q
    | ⟨2, _⟩ => exact flat_col k q)

/-- Layer 3: slice 3 of the second weight table, reshaped to 128 × 128, is read at (3, k, q). -/
theorem widxH3_eq (r : Fin 100000) (q k : Fin 128) :
    idx_main_v151 (idx_main_v152 (ridx_main_v167 (ix2 r q) k)) = ix3 (3 : Fin 4) k q :=
  funext fun a => Fin.ext (by
    match a with
    | ⟨0, _⟩ => rfl
    | ⟨1, _⟩ => exact flat_row k q
    | ⟨2, _⟩ => exact flat_col k q)

/-- Layer 3: row 3 of the bias table, reshaped to a vector and broadcast over the rows, is read at (3, q). -/
theorem bidx3_eq (r : Fin 100000) (q : Fin 128) :
    idx_main_v149 (idx_main_v150 (idx_main_v164 (idx_main_v165 (ix2 r q)))) = ix2 (3 : Fin 4) q :=
  funext fun a => Fin.ext (by
    match a with
    | ⟨0, _⟩ => rfl
    | ⟨1, _⟩ => exact col_mod q)

/-- Layer 3: the result. -/
theorem conv3_apply (r : Fin 100000) (q : Fin 128) :
    val_main_v168 (F := Ideal) x0 x1 x2 x3 x4 x5 x6 (ix2 r q)
      = convRow (rowOf (val_main_v162 (F := Ideal) x0 x1 x2 x3 x4 x5 x6) r) (rowOf (val_main_v146 (F := Ideal) x0 x1 x2 x3 x4 x5 x6) r) (matOf x2 3) (matOf x4 3) (biasOf x3 3) q := by
  rw [val_main_v168_apply, val_main_v166_apply, val_main_v163_apply, val_main_v165_apply, val_main_v164_apply,
    val_main_v150_apply, val_main_v149_apply, val_main_v167_apply]
  generalize val_main_v162 (F := Ideal) x0 x1 x2 x3 x4 x5 x6 = A
  generalize val_main_v146 (F := Ideal) x0 x1 x2 x3 x4 x5 x6 = H
  simp only [val_main_v148_apply, val_main_v147_apply, val_main_v152_apply, val_main_v151_apply, Ideal.addf_def,
    lidxA3_eq, widxA3_eq, bidx3_eq, lidxH3_eq, widxH3_eq]
  rfl

end Cert.ReferenceIdeal.Layers

end
-- ==== Proof.RefNorm.lean ====
/-
  The reference's row normalisation at one entry. After the clamp each of layers 0, 1, 2 takes a row's mean (its sum over
  the 128 columns, from zero, divided by 128), the mean of the squared deviations, adds ε, takes the reciprocal
  square root, and returns ((x − μ) · rsqrt (σ² + ε)) · γ + β with γ and β broadcast over the rows: Spec.lean's lnRow of the row.

  Each layer is read in four steps, every one at explicit coordinates (row r, column k): the mean column at row r is
  rowMean of the row; the deviation at (r, k) is the row's entry minus that mean (the program forms it twice, once for the
  squares and once for the product); the variance column at row r is rowVar of the row; the result at (r, q) is the
  deviation times rsqrt (variance + ε), times γ q, plus β q. A broadcast reads its operand at the index with the
  broadcast coordinate set to 0; a row reduction reads its operand at (r, k) for k over the 128 columns; the index
  equations that say so hold coordinate by coordinate. The clamped value itself is never opened: it is carried as one
  array.
-/
import proofs.«410806_j56659208569289_3_alg».proof.Proof.RefRead
import proofs.«410806_j56659208569289_3_alg».proof.Proof.Spec
import Idealize.ShloMosaic.Lib.Pipeline.Value
import Idealize.ShloMosaic.Lib.ValueLayout
import Idealize.ShloMosaic.PureOps.Ideal.Laws

noncomputable section

namespace Cert.ReferenceIdeal.Layers

open Idealize.ShloMosaic Idealize.ShloMosaic.ValueIdx Cert.ReferenceIdeal Cert.ReferenceIdeal.Gen Cert.ReferenceIdeal.ReadP Cert.GraphConv

variable (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 : (⟨S128, .f32⟩ : BufTy).Contents (Elt Ideal))

/-! ## Layer 0 -/

/-- The row's mean: the sum of the row from zero, divided by 128 (one column per row). -/
private theorem mean0 (r : Fin 100000) (z : Fin 1) :
    val_main_v30 (F := Ideal) x0 x1 x2 x3 x4 (ix2 r z) = rowMean (rowOf (val_main_v26 (F := Ideal) x0 x1 x2 x3 x4) r) := by
  rw [val_main_v30_apply, val_main_v28_apply, val_main_v27_apply, val_main_v29_apply, val_main_cst_1_apply, val_main_cst_2_apply]
  generalize val_main_v26 (F := Ideal) x0 x1 x2 x3 x4 = act
  simp only [Ideal.hostDivf_def, Ideal.ofBits_def, Ideal.ofBits_zero_f32, zero_add]
  unfold rowMean rowOf c128
  exact congrArg (Ideal.div · _) (Finset.sum_congr rfl fun k _ => congrArg act
    (funext fun a => Fin.ext (by match a with | ⟨0, _⟩ => rfl | ⟨1, _⟩ => rfl)))

/-- The deviation from the mean, as it enters the squares. -/
private theorem dev0 (r : Fin 100000) (k : Fin 128) :
    val_main_v32 (F := Ideal) x0 x1 x2 x3 x4 (ix2 r k)
      = rowOf (val_main_v26 (F := Ideal) x0 x1 x2 x3 x4) r k - rowMean (rowOf (val_main_v26 (F := Ideal) x0 x1 x2 x3 x4) r) := by
  have hi : idx_main_v31 (ix2 r k) = ix2 r (0 : Fin 1) :=
    funext fun a => Fin.ext (by match a with | ⟨0, _⟩ => rfl | ⟨1, _⟩ => rfl)
  rw [val_main_v32_apply, val_main_v31_apply, hi, mean0]
  generalize val_main_v26 (F := Ideal) x0 x1 x2 x3 x4 = act
  rfl

/-- The deviation from the mean, as it enters the product with the reciprocal square root. -/
private theorem dev0' (r : Fin 100000) (k : Fin 128) :
    val_main_v39 (F := Ideal) x0 x1 x2 x3 x4 (ix2 r k)
      = rowOf (val_main_v26 (F := Ideal) x0 x1 x2 x3 x4) r k - rowMean (rowOf (val_main_v26 (F := Ideal) x0 x1 x2 x3 x4) r) := by
  have hi : idx_main_v38 (ix2 r k) = ix2 r (0 : Fin 1) :=
    funext fun a => Fin.ext (by match a with | ⟨0, _⟩ => rfl | ⟨1, _⟩ => rfl)
  rw [val_main_v39_apply, val_main_v38_apply, hi, mean0]
  generalize val_main_v26 (F := Ideal) x0 x1 x2 x3 x4 = act
  rfl

/-- The mean of the squared deviations: their sum from zero, divided by 128. -/
private theorem var0 (r : Fin 100000) (z : Fin 1) :
    val_main_v37 (F := Ideal) x0 x1 x2 x3 x4 (ix2 r z) = rowVar (rowOf (val_main_v26 (F := Ideal) x0 x1 x2 x3 x4) r) := by
  have hs : ∀ k : Fin 128, val_main_v33 (F := Ideal) x0 x1 x2 x3 x4 (idx_main_v34 (idx_main_v35 (ix2 r z)) k)
      = (rowOf (val_main_v26 (F := Ideal) x0 x1 x2 x3 x4) r k - rowMean (rowOf (val_main_v26 (F := Ideal) x0 x1 x2 x3 x4) r))
        * (rowOf (val_main_v26 (F := Ideal) x0 x1 x2 x3 x4) r k - rowMean (rowOf (val_main_v26 (F := Ideal) x0 x1 x2 x3 x4) r)) := fun k => by
    have hi : idx_main_v34 (idx_main_v35 (ix2 r z)) k = ix2 r k :=
      funext fun a => Fin.ext (by match a with | ⟨0, _⟩ => rfl | ⟨1, _⟩ => rfl)
    rw [hi, val_main_v33_apply, dev0]
    generalize val_main_v26 (F := Ideal) x0 x1 x2 x3 x4 = act
    rfl
  rw [val_main_v37_apply, val_main_v35_apply, val_main_v34_apply, val_main_v36_apply, val_main_cst_3_apply, val_main_cst_4_apply,
    Finset.sum_congr rfl fun k _ => hs k]
  generalize val_main_v26 (F := Ideal) x0 x1 x2 x3 x4 = act
  rw [Ideal.hostDivf_def, Ideal.ofBits_def, Ideal.ofBits_def, Ideal.ofBits_zero_f32, zero_add]
  rfl

/-- Layer 0's result from its clamped value. -/
theorem norm0_apply (r : Fin 100000) (q : Fin 128) :
    val_main_v50 (F := Ideal) x0 x1 x2 x3 x4 x5 x6 (ix2 r q)
      = lnRow (vecOf x5) (vecOf x6) (rowOf (val_main_v26 (F := Ideal) x0 x1 x2 x3 x4) r) q := by
  have hi : idx_main_v43 (ix2 r q) = ix2 r (0 : Fin 1) :=
    funext fun a => Fin.ext (by match a with | ⟨0, _⟩ => rfl | ⟨1, _⟩ => rfl)
  have hg : idx_main_v45 (idx_main_v46 (ix2 r q)) = ix1 q :=
    funext fun a => Fin.ext (by match a with | ⟨0, _⟩ => rfl)
  have hb : idx_main_v48 (idx_main_v49 (ix2 r q)) = ix1 q :=
    funext fun a => Fin.ext (by match a with | ⟨0, _⟩ => rfl)
  rw [val_main_v50_apply, val_main_v47_apply, val_main_v44_apply, dev0', val_main_v43_apply, hi, val_main_v42_apply,
    val_main_v41_apply, var0, val_main_v40_apply, val_main_cst_5_apply, val_main_v46_apply, val_main_v45_apply, hg,
    val_main_v49_apply, val_main_v48_apply, hb]
  generalize val_main_v26 (F := Ideal) x0 x1 x2 x3 x4 = act
  rfl

/-! ## Layer 1 -/

/-- The row's mean: the sum of the row from zero, divided by 128 (one column per row). -/
private theorem mean1 (r : Fin 100000) (z : Fin 1) :
    val_main_v78 (F := Ideal) x0 x1 x2 x3 x4 x5 x6 (ix2 r z) = rowMean (rowOf (val_main_v74 (F := Ideal) x0 x1 x2 x3 x4 x5 x6) r) := by
  rw [val_main_v78_apply, val_main_v76_apply, val_main_v75_apply, val_main_v77_apply, val_main_cst_9_apply, val_main_cst_10_apply]
  generalize val_main_v74 (F := Ideal) x0 x1 x2 x3 x4 x5 x6 = act
  simp only [Ideal.hostDivf_def, Ideal.ofBits_def, Ideal.ofBits_zero_f32, zero_add]
  unfold rowMean rowOf c128
  exact congrArg (Ideal.div · _) (Finset.sum_congr rfl fun k _ => congrArg act
    (funext fun a => Fin.ext (by match a with | ⟨0, _⟩ => rfl | ⟨1, _⟩ => rfl)))

/-- The deviation from the mean, as it enters the squares. -/
private theorem dev1 (r : Fin 100000) (k : Fin 128) :
    val_main_v80 (F := Ideal) x0 x1 x2 x3 x4 x5 x6 (ix2 r k)
      = rowOf (val_main_v74 (F := Ideal) x0 x1 x2 x3 x4 x5 x6) r k - rowMean (rowOf (val_main_v74 (F := Ideal) x0 x1 x2 x3 x4 x5 x6) r) := by
  have hi : idx_main_v79 (ix2 r k) = ix2 r (0 : Fin 1) :=
    funext fun a => Fin.ext (by match a with | ⟨0, _⟩ => rfl | ⟨1, _⟩ => rfl)
  rw [val_main_v80_apply, val_main_v79_apply, hi, mean1]
  generalize val_main_v74 (F := Ideal) x0 x1 x2 x3 x4 x5 x6 = act
  rfl

/-- The deviation from the mean, as it enters the product with the reciprocal square root. -/
private theorem dev1' (r : Fin 100000) (k : Fin 128) :
    val_main_v87 (F := Ideal) x0 x1 x2 x3 x4 x5 x6 (ix2 r k)
      = rowOf (val_main_v74 (F := Ideal) x0 x1 x2 x3 x4 x5 x6) r k - rowMean (rowOf (val_main_v74 (F := Ideal) x0 x1 x2 x3 x4 x5 x6) r) := by
  have hi : idx_main_v86 (ix2 r k) = ix2 r (0 : Fin 1) :=
    funext fun a => Fin.ext (by match a with | ⟨0, _⟩ => rfl | ⟨1, _⟩ => rfl)
  rw [val_main_v87_apply, val_main_v86_apply, hi, mean1]
  generalize val_main_v74 (F := Ideal) x0 x1 x2 x3 x4 x5 x6 = act
  rfl

/-- The mean of the squared deviations: their sum from zero, divided by 128. -/
private theorem var1 (r : Fin 100000) (z : Fin 1) :
    val_main_v85 (F := Ideal) x0 x1 x2 x3 x4 x5 x6 (ix2 r z) = rowVar (rowOf (val_main_v74 (F := Ideal) x0 x1 x2 x3 x4 x5 x6) r) := by
  have hs : ∀ k : Fin 128, val_main_v81 (F := Ideal) x0 x1 x2 x3 x4 x5 x6 (idx_main_v82 (idx_main_v83 (ix2 r z)) k)
      = (rowOf (val_main_v74 (F := Ideal) x0 x1 x2 x3 x4 x5 x6) r k - rowMean (rowOf (val_main_v74 (F := Ideal) x0 x1 x2 x3 x4 x5 x6) r))
        * (rowOf (val_main_v74 (F := Ideal) x0 x1 x2 x3 x4 x5 x6) r k - rowMean (rowOf (val_main_v74 (F := Ideal) x0 x1 x2 x3 x4 x5 x6) r)) := fun k => by
    have hi : idx_main_v82 (idx_main_v83 (ix2 r z)) k = ix2 r k :=
      funext fun a => Fin.ext (by match a with | ⟨0, _⟩ => rfl | ⟨1, _⟩ => rfl)
    rw [hi, val_main_v81_apply, dev1]
    generalize val_main_v74 (F := Ideal) x0 x1 x2 x3 x4 x5 x6 = act
    rfl
  rw [val_main_v85_apply, val_main_v83_apply, val_main_v82_apply, val_main_v84_apply, val_main_cst_11_apply, val_main_cst_12_apply,
    Finset.sum_congr rfl fun k _ => hs k]
  generalize val_main_v74 (F := Ideal) x0 x1 x2 x3 x4 x5 x6 = act
  rw [Ideal.hostDivf_def, Ideal.ofBits_def, Ideal.ofBits_def, Ideal.ofBits_zero_f32, zero_add]
  rfl

/-- Layer 1's result from its clamped value. -/
theorem norm1_apply (r : Fin 100000) (q : Fin 128) :
    val_main_v98 (F := Ideal) x0 x1 x2 x3 x4 x5 x6 (ix2 r q)
      = lnRow (vecOf x5) (vecOf x6) (rowOf (val_main_v74 (F := Ideal) x0 x1 x2 x3 x4 x5 x6) r) q := by
  have hi : idx_main_v91 (ix2 r q) = ix2 r (0 : Fin 1) :=
    funext fun a => Fin.ext (by match a with | ⟨0, _⟩ => rfl | ⟨1, _⟩ => rfl)
  have hg : idx_main_v93 (idx_main_v94 (ix2 r q)) = ix1 q :=
    funext fun a => Fin.ext (by match a with | ⟨0, _⟩ => rfl)
  have hb : idx_main_v96 (idx_main_v97 (ix2 r q)) = ix1 q :=
    funext fun a => Fin.ext (by match a with | ⟨0, _⟩ => rfl)
  rw [val_main_v98_apply, val_main_v95_apply, val_main_v92_apply, dev1', val_main_v91_apply, hi, val_main_v90_apply,
    val_main_v89_apply, var1, val_main_v88_apply, val_main_cst_13_apply, val_main_v94_apply, val_main_v93_apply, hg,
    val_main_v97_apply, val_main_v96_apply, hb]
  generalize val_main_v74 (F := Ideal) x0 x1 x2 x3 x4 x5 x6 = act
  rfl

/-! ## Layer 2 -/

/-- The row's mean: the sum of the row from zero, divided by 128 (one column per row). -/
private theorem mean2 (r : Fin 100000) (z : Fin 1) :
    val_main_v126 (F := Ideal) x0 x1 x2 x3 x4 x5 x6 (ix2 r z) = rowMean (rowOf (val_main_v122 (F := Ideal) x0 x1 x2 x3 x4 x5 x6) r) := by
  rw [val_main_v126_apply, val_main_v124_apply, val_main_v123_apply, val_main_v125_apply, val_main_cst_17_apply, val_main_cst_18_apply]
  generalize val_main_v122 (F := Ideal) x0 x1 x2 x3 x4 x5 x6 = act
  simp only [Ideal.hostDivf_def, Ideal.ofBits_def, Ideal.ofBits_zero_f32, zero_add]
  unfold rowMean rowOf c128
  exact congrArg (Ideal.div · _) (Finset.sum_congr rfl fun k _ => congrArg act
    (funext fun a => Fin.ext (by match a with | ⟨0, _⟩ => rfl | ⟨1, _⟩ => rfl)))

/-- The deviation from the mean, as it enters the squares. -/
private theorem dev2 (r : Fin 100000) (k : Fin 128) :
    val_main_v128 (F := Ideal) x0 x1 x2 x3 x4 x5 x6 (ix2 r k)
      = rowOf (val_main_v122 (F := Ideal) x0 x1 x2 x3 x4 x5 x6) r k - rowMean (rowOf (val_main_v122 (F := Ideal) x0 x1 x2 x3 x4 x5 x6) r) := by
  have hi : idx_main_v127 (ix2 r k) = ix2 r (0 : Fin 1) :=
    funext fun a => Fin.ext (by match a with | ⟨0, _⟩ => rfl | ⟨1, _⟩ => rfl)
  rw [val_main_v128_apply, val_main_v127_apply, hi, mean2]
  generalize val_main_v122 (F := Ideal) x0 x1 x2 x3 x4 x5 x6 = act
  rfl

/-- The deviation from the mean, as it enters the product with the reciprocal square root. -/
private theorem dev2' (r : Fin 100000) (k : Fin 128) :
    val_main_v135 (F := Ideal) x0 x1 x2 x3 x4 x5 x6 (ix2 r k)
      = rowOf (val_main_v122 (F := Ideal) x0 x1 x2 x3 x4 x5 x6) r k - rowMean (rowOf (val_main_v122 (F := Ideal) x0 x1 x2 x3 x4 x5 x6) r) := by
  have hi : idx_main_v134 (ix2 r k) = ix2 r (0 : Fin 1) :=
    funext fun a => Fin.ext (by match a with | ⟨0, _⟩ => rfl | ⟨1, _⟩ => rfl)
  rw [val_main_v135_apply, val_main_v134_apply, hi, mean2]
  generalize val_main_v122 (F := Ideal) x0 x1 x2 x3 x4 x5 x6 = act
  rfl

/-- The mean of the squared deviations: their sum from zero, divided by 128. -/
private theorem var2 (r : Fin 100000) (z : Fin 1) :
    val_main_v133 (F := Ideal) x0 x1 x2 x3 x4 x5 x6 (ix2 r z) = rowVar (rowOf (val_main_v122 (F := Ideal) x0 x1 x2 x3 x4 x5 x6) r) := by
  have hs : ∀ k : Fin 128, val_main_v129 (F := Ideal) x0 x1 x2 x3 x4 x5 x6 (idx_main_v130 (idx_main_v131 (ix2 r z)) k)
      = (rowOf (val_main_v122 (F := Ideal) x0 x1 x2 x3 x4 x5 x6) r k - rowMean (rowOf (val_main_v122 (F := Ideal) x0 x1 x2 x3 x4 x5 x6) r))
        * (rowOf (val_main_v122 (F := Ideal) x0 x1 x2 x3 x4 x5 x6) r k - rowMean (rowOf (val_main_v122 (F := Ideal) x0 x1 x2 x3 x4 x5 x6) r)) := fun k => by
    have hi : idx_main_v130 (idx_main_v131 (ix2 r z)) k = ix2 r k :=
      funext fun a => Fin.ext (by match a with | ⟨0, _⟩ => rfl | ⟨1, _⟩ => rfl)
    rw [hi, val_main_v129_apply, dev2]
    generalize val_main_v122 (F := Ideal) x0 x1 x2 x3 x4 x5 x6 = act
    rfl
  rw [val_main_v133_apply, val_main_v131_apply, val_main_v130_apply, val_main_v132_apply, val_main_cst_19_apply, val_main_cst_20_apply,
    Finset.sum_congr rfl fun k _ => hs k]
  generalize val_main_v122 (F := Ideal) x0 x1 x2 x3 x4 x5 x6 = act
  rw [Ideal.hostDivf_def, Ideal.ofBits_def, Ideal.ofBits_def, Ideal.ofBits_zero_f32, zero_add]
  rfl

/-- Layer 2's result from its clamped value. -/
theorem norm2_apply (r : Fin 100000) (q : Fin 128) :
    val_main_v146 (F := Ideal) x0 x1 x2 x3 x4 x5 x6 (ix2 r q)
      = lnRow (vecOf x5) (vecOf x6) (rowOf (val_main_v122 (F := Ideal) x0 x1 x2 x3 x4 x5 x6) r) q := by
  have hi : idx_main_v139 (ix2 r q) = ix2 r (0 : Fin 1) :=
    funext fun a => Fin.ext (by match a with | ⟨0, _⟩ => rfl | ⟨1, _⟩ => rfl)
  have hg : idx_main_v141 (idx_main_v142 (ix2 r q)) = ix1 q :=
    funext fun a => Fin.ext (by match a with | ⟨0, _⟩ => rfl)
  have hb : idx_main_v144 (idx_main_v145 (ix2 r q)) = ix1 q :=
    funext fun a => Fin.ext (by match a with | ⟨0, _⟩ => rfl)
  rw [val_main_v146_apply, val_main_v143_apply, val_main_v140_apply, dev2', val_main_v139_apply, hi, val_main_v138_apply,
    val_main_v137_apply, var2, val_main_v136_apply, val_main_cst_21_apply, val_main_v142_apply, val_main_v141_apply, hg,
    val_main_v145_apply, val_main_v144_apply, hb]
  generalize val_main_v122 (F := Ideal) x0 x1 x2 x3 x4 x5 x6 = act
  rfl

end Cert.ReferenceIdeal.Layers

end
-- ==== Proof.RefLayers.lean ====
/-
  The reference as the four layers composed. Its aggregation of a node array — gather the rows at the edges'
  (wrapped) source indices, scatter-add them at the destinations into zero — is carried as ONE function of the edge
  list and the array, never opened. With RefConv.lean (each layer's convolution at an entry) and RefNorm.lean (each
  normalisation at an entry), every layer's result is Spec.lean's layer function of the layer before, index by
  index, and the reference's result is `net` over this aggregation.
-/
import proofs.«410806_j56659208569289_3_alg».proof.Proof.RefConv
import proofs.«410806_j56659208569289_3_alg».proof.Proof.RefNorm

noncomputable section

namespace Cert.ReferenceIdeal.Layers

open Idealize.ShloMosaic Idealize.ShloMosaic.ValueIdx Cert.ReferenceIdeal Cert.ReferenceIdeal.Gen Cert.ReferenceIdeal.ReadP Cert.GraphConv

section Agg
variable {F : FTy → Type} [FloatOps F]

/-- Every edge's source index: row 0 of the edge list. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000
/-- Every edge's destination index: row 1 of the edge list. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The aggregate of a node array over edges given by their source and destination indices: the rows at the
    (wrapped) sources, summed into the destinations from zero. -/
def aggForm (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregation of the reference, as a function of the edge list. -/
def aggR (ei : (⟨S2x1600000, .i32⟩ : BufTy).Contents (Elt F)) (h : (⟨S100000x128, .f32⟩ : BufTy).Contents (Elt F)) :
    (⟨S100000x128, .f32⟩ : BufTy).Contents (Elt F) := aggForm (srcOf ei) (dstOf ei) h

variable (y0 : (⟨S100000x128, .f32⟩ : BufTy).Contents (Elt F)) (y1 : (⟨S2x1600000, .i32⟩ : BufTy).Contents (Elt F)) (y2 : (⟨S4x128x128, .f32⟩ : BufTy).Contents (Elt F)) (y3 : (⟨S4x128, .f32⟩ : BufTy).Contents (Elt F)) (y4 : (⟨S4x128x128, .f32⟩ : BufTy).Contents (Elt F)) (y5 y6 : (⟨S128, .f32⟩ : BufTy).Contents (Elt F))

/-- Each layer's aggregate is the one aggregation, of the layer's input. -/
theorem v19_eq : val_main_v19 (F := F) y0 y1 = aggR y1 y0 := rfl
theorem v66_eq : val_main_v66 (F := F) y0 y1 y2 y3 y4 y5 y6 = aggR y1 (val_main_v50 (F := F) y0 y1 y2 y3 y4 y5 y6) := rfl
theorem v114_eq : val_main_v114 (F := F) y0 y1 y2 y3 y4 y5 y6 = aggR y1 (val_main_v98 (F := F) y0 y1 y2 y3 y4 y5 y6) := rfl
theorem v162_eq : val_main_v162 (F := F) y0 y1 y2 y3 y4 y5 y6 = aggR y1 (val_main_v146 (F := F) y0 y1 y2 y3 y4 y5 y6) := rfl

end Agg

variable (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 : (⟨S128, .f32⟩ : BufTy).Contents (Elt Ideal))

/-- The clamp at zero, at an entry (layer 0). -/
theorem relu0_apply (i : S100000x128.Idx) :
    val_main_v26 (F := Ideal) x0 x1 x2 x3 x4 i = max (val_main_v25 (F := Ideal) x0 x1 x2 x3 x4 i) 0 := by
  rw [val_main_v26_apply, val_main_call0_v0_apply, val_main_call0_cst_apply]
  show max _ (Ideal.ofBits .f32 0x00000000#32) = _
  rw [Ideal.ofBits_zero_f32]
/-- The clamp at zero, at an entry (layer 1). -/
theorem relu1_apply (i : S100000x128.Idx) :
    val_main_v74 (F := Ideal) x0 x1 x2 x3 x4 x5 x6 i = max (val_main_v73 (F := Ideal) x0 x1 x2 x3 x4 x5 x6 i) 0 := by
  rw [val_main_v74_apply, val_main_call1_v0_apply, val_main_call1_cst_apply]
  show max _ (Ideal.ofBits .f32 0x00000000#32) = _
  rw [Ideal.ofBits_zero_f32]
/-- The clamp at zero, at an entry (layer 2). -/
theorem relu2_apply (i : S100000x128.Idx) :
    val_main_v122 (F := Ideal) x0 x1 x2 x3 x4 x5 x6 i = max (val_main_v121 (F := Ideal) x0 x1 x2 x3 x4 x5 x6 i) 0 := by
  rw [val_main_v122_apply, val_main_call2_v0_apply, val_main_call2_cst_apply]
  show max _ (Ideal.ofBits .f32 0x00000000#32) = _
  rw [Ideal.ofBits_zero_f32]

/-- Layer 0's result. -/
theorem layer0_eq : val_main_v50 (F := Ideal) x0 x1 x2 x3 x4 x5 x6 = layerFirst 0 (aggR x1 x0) x0 x2 x3 x4 x5 x6 := by
  funext i
  obtain ⟨r, q, rfl⟩ : ∃ (r : Fin 100000) (q : Fin 128), i = ix2 r q := ⟨i 0, i 1, eq_ix2 i⟩
  rw [norm0_apply]
  show _ = lnRow (vecOf x5) (vecOf x6) (fun j => max (convRow (rowOf (aggR x1 x0) r) (rowOf x0 r) (matOf x2 0) (matOf x4 0) (biasOf x3 0) j) 0) q
  refine congrArg (fun x => lnRow (vecOf x5) (vecOf x6) x q) (funext fun j => ?_)
  show val_main_v26 (F := Ideal) x0 x1 x2 x3 x4 (ix2 r j) = _
  rw [relu0_apply, conv0_apply, v19_eq]

/-- Layer 1's result, from layer 0's. -/
theorem layer1_eq : val_main_v98 (F := Ideal) x0 x1 x2 x3 x4 x5 x6
    = layerMid 1 (aggR x1 (val_main_v50 (F := Ideal) x0 x1 x2 x3 x4 x5 x6)) (val_main_v50 (F := Ideal) x0 x1 x2 x3 x4 x5 x6) x2 x3 x4 x5 x6 := by
  funext i
  obtain ⟨r, q, rfl⟩ : ∃ (r : Fin 100000) (q : Fin 128), i = ix2 r q := ⟨i 0, i 1, eq_ix2 i⟩
  rw [norm1_apply]
  show _ = lnRow (vecOf x5) (vecOf x6) (fun j => max (convRow (rowOf (aggR x1 (val_main_v50 (F := Ideal) x0 x1 x2 x3 x4 x5 x6)) r) (rowOf (val_main_v50 (F := Ideal) x0 x1 x2 x3 x4 x5 x6) r) (matOf x2 1) (matOf x4 1) (biasOf x3 1) j + rowOf (val_main_v50 (F := Ideal) x0 x1 x2 x3 x4 x5 x6) r j) 0) q
  refine congrArg (fun x => lnRow (vecOf x5) (vecOf x6) x q) (funext fun j => ?_)
  show val_main_v74 (F := Ideal) x0 x1 x2 x3 x4 x5 x6 (ix2 r j) = _
  rw [relu1_apply, conv1_apply, v66_eq]
  rfl

/-- Layer 2's result, from layer 1's. -/
theorem layer2_eq : val_main_v146 (F := Ideal) x0 x1 x2 x3 x4 x5 x6
    = layerMid 2 (aggR x1 (val_main_v98 (F := Ideal) x0 x1 x2 x3 x4 x5 x6)) (val_main_v98 (F := Ideal) x0 x1 x2 x3 x4 x5 x6) x2 x3 x4 x5 x6 := by
  funext i
  obtain ⟨r, q, rfl⟩ : ∃ (r : Fin 100000) (q : Fin 128), i = ix2 r q := ⟨i 0, i 1, eq_ix2 i⟩
  rw [norm2_apply]
  show _ = lnRow (vecOf x5) (vecOf x6) (fun j => max (convRow (rowOf (aggR x1 (val_main_v98 (F := Ideal) x0 x1 x2 x3 x4 x5 x6)) r) (rowOf (val_main_v98 (F := Ideal) x0 x1 x2 x3 x4 x5 x6) r) (matOf x2 2) (matOf x4 2) (biasOf x3 2) j + rowOf (val_main_v98 (F := Ideal) x0 x1 x2 x3 x4 x5 x6) r j) 0) q
  refine congrArg (fun x => lnRow (vecOf x5) (vecOf x6) x q) (funext fun j => ?_)
  show val_main_v122 (F := Ideal) x0 x1 x2 x3 x4 x5 x6 (ix2 r j) = _
  rw [relu2_apply, conv2_apply, v114_eq]
  rfl

/-- Layer 3's result, from layer 2's. -/
theorem layer3_eq : val_main_v168 (F := Ideal) x0 x1 x2 x3 x4 x5 x6
    = layerLast 3 (aggR x1 (val_main_v146 (F := Ideal) x0 x1 x2 x3 x4 x5 x6)) (val_main_v146 (F := Ideal) x0 x1 x2 x3 x4 x5 x6) x2 x3 x4 := by
  funext i
  obtain ⟨r, q, rfl⟩ : ∃ (r : Fin 100000) (q : Fin 128), i = ix2 r q := ⟨i 0, i 1, eq_ix2 i⟩
  rw [conv3_apply, v162_eq]
  rfl

/-- The reference's result: the four layers over its aggregation. -/
theorem ref_value : val_main_v168 (F := Ideal) x0 x1 x2 x3 x4 x5 x6 = net (aggR x1) x0 x2 x3 x4 x5 x6 := by
  rw [layer3_eq, layer2_eq, layer1_eq, layer0_eq]
  rfl

end Cert.ReferenceIdeal.Layers

end
-- ==== Proof.RefFinal.lean ====
/-
  The reference's run with its result as the four layers of the arguments: the fold of the 202 operations read layer by
  layer (RefStages.lean) ends at the last stage, and the last stage is Spec.lean's `net` over the reference's
  aggregation (RefLayers.lean). No operation writes an argument, so the arguments end as launched.
-/
import proofs.«410806_j56659208569289_3_alg».proof.Proof.RefStages
import proofs.«410806_j56659208569289_3_alg».proof.Proof.RefLayers

set_option maxRecDepth 8192

noncomputable section

namespace Cert.ReferenceIdeal.Final

open Idealize.ShloMosaic Idealize.ShloMosaic.TcCoe Idealize.SL.Sem Idealize.ShloMosaic.StableHlo
open Cert.ReferenceIdeal Cert.ReferenceIdeal.Gen Cert.ReferenceIdeal.RunP Cert.ReferenceIdeal.ReadP Cert.ReferenceIdeal.Layers Cert.ReferenceIdeal.Stages Cert.GraphConv

set_option maxHeartbeats 80800000 in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168)
        = net (aggR (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v168).trans ((after_v168 (launchContents m c) _ _ _ _ _ _ _ rfl rfl rfl rfl rfl rfl rfl).trans (ref_value _ _ _ _ _ _ _)),
       (h c main_arg0).trans (by after_results_simp <;> rfl),
       (h c main_arg1).trans (by after_results_simp <;> rfl),
       (h c main_arg2).trans (by after_results_simp <;> rfl),
       (h c main_arg3).trans (by after_results_simp <;> rfl),
       (h c main_arg4).trans (by after_results_simp <;> rfl),
       (h c main_arg5).trans (by after_results_simp <;> rfl),
       (h c main_arg6).trans (by after_results_simp <;> rfl)⟩)
    (run_after m ρ)

end Cert.ReferenceIdeal.Final

end
-- ==== Proof.lean ====
/-
  A four-layer graph convolution, as a row-blocked kernel and as whole-array jnp.

  Both programs carry 100000 node features of width 128 through four layers. A layer first aggregates: for every edge
  it takes the feature row at the edge's source (negative indices wrapped by the node count) and adds it into the row
  at the edge's destination, from zero. Both programs do this with the SAME host operations, so the aggregation is
  carried as one function and never opened. Then the layer's convolution
      conv = (A · Wrel_l + b_l) + H · Wroot_l
  with A the aggregate and H the features. The reference computes the two products separately; the kernel
  concatenates [A ‖ H] (width 256), stacks Wrel_l on Wroot_l (256 × 128), and does ONE product, then adds b_l. Over
  the extended reals (where narrowing a float to bf16 is the identity) the 256-term sum splits into the two
  128-term sums and the bias moves between them: commutativity and associativity of + only, which hold at the
  infinities too, so the inputs' finiteness is never used. Layers 0, 1, 2 clamp at zero and normalise every row
  (mean, mean squared deviation, rsqrt of that plus ε, scale γ and shift β), layers 1 and 2 adding the layer's input
  before the clamp; both programs spell these steps with the same grouping and the same constants (128.0 and the f32
  nearest 1e-5), so nothing is to be proved there beyond reading both at an index. Layer 3 returns the convolution.

  The kernel's side: each launch runs its body at 20 grid points of 5000 rows; the body's stored block at entry (p, q)
  is the layer's ROW function of row p of its two input blocks (KConv, KNorm, KBody), the blocks tile the array
  (KRegion), and the buffer contents at the boundaries between host stretches and launches read back to the launch
  contents (KLayout for the stacked weights, KBound), giving Spec.lean's `net` of the arguments (KernelRun for the
  run itself). The reference's side: its fold of host operations is cut at the layer boundaries (RefStages), each
  layer read at an index (RefConv, RefNorm, RefLayers), giving the same `net` (RefFinal).
-/
import proofs.«410806_j56659208569289_3_alg».proof.Defs
import proofs.«410806_j56659208569289_3_alg».proof.Proof.Gen.Kernel.Frame
import proofs.«410806_j56659208569289_3_alg».proof.Proof.Gen.KernelIdeal.Frame
import proofs.«410806_j56659208569289_3_alg».proof.Proof.Gen.ReferenceIdeal
import proofs.«410806_j56659208569289_3_alg».proof.Proof.Gen.Pre_finite_inputs
import proofs.«410806_j56659208569289_3_alg».proof.Proof.KBound
import proofs.«410806_j56659208569289_3_alg».proof.Proof.RefFinal
import Idealize.ShloMosaic.Adequacy
import Idealize.ShloMosaic.Init

noncomputable section

namespace Cert.Proof

open Idealize.ShloMosaic Idealize.SL.Sem Cert.GraphConv

/-- The two programs' aggregations are one function: the same operations over the same shape records. -/
theorem agg_eq {F : FTy → Type} [FloatOps F] :
    @Cert.ReferenceIdeal.Layers.aggR F _ = @Cert.KernelIdeal.Bound.aggK F _ := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Final.ref_run m ρ)

/-- Both runs end with the result array at the four layers of arguments that agree. -/
theorem algebraic : Cert.algebraic_KernelIdeal_ReferenceIdeal := by
  intro m ρ m' ρ' _ hagree
  refine ⟨fun c => net (Cert.KernelIdeal.Bound.aggK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Bound.kernel_value m ρ c), (h c).2⟩)
      (Cert.KernelIdeal.RunValue.run_w8 (F := Ideal) m ρ)
  · refine (θ_run Cert.ReferenceIdeal.defs _ _).mono (fun _ h c => ⟨(h c).1.trans ?_, (h c).2⟩)
      (Cert.ReferenceIdeal.Final.ref_run m' ρ')
    rw [(hagree c).1, (hagree c).2.1, (hagree c).2.2.1, (hagree c).2.2.2.1, (hagree c).2.2.2.2.1, (hagree c).2.2.2.2.2.1,
      (hagree c).2.2.2.2.2.2, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
